-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S2x3200000 : Shape := ⟨2, ![2, 3200000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg14 : FVec F S3 .f32) (main_v63 : IVec S_ 1) (main_v67 : IVec S_ 1) : IVec S_ 1 :=
  let main_v68 : IVec S_ 1 := andi main_v63 main_v67
  let main_v69 : FVec F S3 .f32 := Host.absf main_arg14
  let main_cst_26 : FVec F S_ .f32 := constant S_ .f32 0x7F800000#32
  let main_v70 : FVec F S3 .f32 := broadcastInDim S3 ![] bcast_S_S3 main_cst_26
  let main_v71 : IVec S3 1 := cmpf .olt main_v69 main_v70
  let main_c_27 : IVec S_ 1 := constantI S_ 1 1#1
  let main_v72 : IVec S_ 1 := (fun x v => Host.reduce IntOp.andi x v reducesTo_S3_S_d0 h_S_) main_v71 main_c_27
  let main_v73 : IVec S_ 1 := andi main_v68 main_v72
  main_v73

def fn_part3 {F : FTy → Type} [FloatOps F] (main_arg11 : FVec F S64 .f32) (main_arg12 : FVec F S64 .f32) (main_arg13 : FVec F S64x3 .f32) (main_arg14 : FVec F S3 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x3 .f32 := Host.absf main_arg13
  let main_cst_24 : FVec F S_ .f32 := constant S_ .f32 0x7F800000#32
  let main_v65 : FVec F S64x3 .f32 := broadcastInDim S64x3 ![] bcast_S_S64x3 main_cst_24
  let main_v66 : IVec S64x3 1 := cmpf .olt main_v64 main_v65
  let main_c_25 : IVec S_ 1 := constantI S_ 1 1#1
  let main_v67 : IVec S_ 1 := (fun x v => Host.reduce IntOp.andi x v reducesTo_S64x3_S_d0_1 h_S_) main_v66 main_c_25
  fn_part4 (F := F) main_arg14 main_v63 main_v67

def fn_part2 {F : FTy → Type} [FloatOps F] (main_arg7 : FVec F S64x64 .f32) (main_arg8 : FVec F S64 .f32) (main_arg9 : FVec F S64 .f32) (main_arg10 : FVec F S64 .f32) (main_arg11 : FVec F S64 .f32) (main_arg12 : FVec F S64 .f32) (main_arg13 : FVec F S64x3 .f32) (main_arg14 : FVec F S3 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64 .f32) (main_arg12 : FVec F S64 .f32) (main_arg13 : FVec F S64x3 .f32) (main_arg14 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S100000x128 .f32) (main_arg1 : FVec F S128x64 .f32) (main_arg2 : FVec F S64 .f32) (main_arg3 : FVec F S64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64 .f32) (main_arg12 : FVec F S64 .f32) (main_arg13 : FVec F S64x3 .f32) (main_arg14 : FVec F S3 .f32) (main_arg15 : IVec S2x3200000 32) (main_arg16 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S4000x128 : Shape := ⟨2, ![4000, 128]⟩
abbrev S4000x64 : Shape := ⟨2, ![4000, 64]⟩
abbrev S3300000x64 : Shape := ⟨2, ![3300000, 64]⟩
abbrev S1x64 : Shape := ⟨2, ![1, 64]⟩
abbrev S100000x1 : Shape := ⟨2, ![100000, 1]⟩
abbrev S512x64 : Shape := ⟨2, ![512, 64]⟩
abbrev S4000x1 : Shape := ⟨2, ![4000, 1]⟩
abbrev S4000x512 : Shape := ⟨2, ![4000, 512]⟩
abbrev S512 : Shape := ⟨1, ![512]⟩
abbrev S512x1 : Shape := ⟨2, ![512, 1]⟩
abbrev S512x3 : Shape := ⟨2, ![512, 3]⟩
abbrev S1x3 : Shape := ⟨2, ![1, 3]⟩

abbrev nBuf : Space → Nat
  | .hbm => 114
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64x3, .f32⟩
  | .hbm, ⟨14, _⟩ => ⟨S3, .f32⟩
  | .hbm, ⟨15, _⟩ => ⟨S2x3200000, .i32⟩
  | .hbm, ⟨16, _⟩ => ⟨S100000, .i32⟩
  | .hbm, ⟨17, _⟩ => ⟨S1x3200000, .i32⟩
  | .hbm, ⟨18, _⟩ => ⟨S3200000, .i32⟩
  | .hbm, ⟨19, _⟩ => ⟨S1x3200000, .i32⟩
  | .hbm, ⟨20, _⟩ => ⟨S3200000, .i32⟩
  | .hbm, ⟨21, _⟩ => ⟨S100000, .i32⟩
  | .hbm, ⟨22, _⟩ => ⟨S3300000, .i32⟩
  | .hbm, ⟨23, _⟩ => ⟨S3300000, .i32⟩
  | .hbm, ⟨24, _⟩ => ⟨S_, .f32⟩
  | .hbm, ⟨25, _⟩ => ⟨S3300000, .f32⟩
  | .hbm, ⟨26, _⟩ => ⟨S_, .f32⟩
  | .hbm, ⟨27, _⟩ => ⟨S100000, .f32⟩
  | .hbm, ⟨28, _⟩ => ⟨S3300000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000, .f32⟩
  | .hbm, ⟨56, _⟩ => ⟨S3300000, .f32⟩
  | .hbm, ⟨57, _⟩ => ⟨S100000x64, .f32⟩
  | .hbm, ⟨58, _⟩ => ⟨S_, .i32⟩
  | .hbm, ⟨59, _⟩ => ⟨S3300000, .i32⟩
  | .hbm, ⟨60, _⟩ => ⟨S3300000, .i1⟩
  | .hbm, ⟨61, _⟩ => ⟨S_, .i32⟩
  | .hbm, ⟨62, _⟩ => ⟨S3300000, .i32⟩
  | .hbm, ⟨63, _⟩ => ⟨S3300000, .i32⟩
  | .hbm, ⟨64, _⟩ => ⟨S3300000, .i32⟩
  | .hbm, ⟨65, _⟩ => ⟨S3300000x1, .i32⟩
  | .hbm, ⟨66, _⟩ => ⟨S3300000x64, .f32⟩
  | .hbm, ⟨67, _⟩ => ⟨S3300000x1, .f32⟩
  | .hbm, ⟨68, _⟩ => ⟨S3300000x64, .f32⟩
  | .hbm, ⟨69, _⟩ => ⟨S3300000x64, .f32⟩
  | .hbm, ⟨70, _⟩ => ⟨S_, .f32⟩
  | .hbm, ⟨71, _⟩ => ⟨S100000x64, .f32⟩
  | .hbm, ⟨72, _⟩ => ⟨S3300000x1, .i32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000x64, .f32⟩
  | .hbm, ⟨88, _⟩ => ⟨S3300000x1, .f32⟩
  | .hbm, ⟨89, _⟩ => ⟨S3300000x64, .f32⟩
  | .hbm, ⟨90, _⟩ => ⟨S3300000x64, .f32⟩
  | .hbm, ⟨91, _⟩ => ⟨S_, .f32⟩
  | .hbm, ⟨92, _⟩ => ⟨S100000x64, .f32⟩
  | .hbm, ⟨93, _⟩ => ⟨S3300000x1, .i32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S100000x1, .i32⟩
  | .hbm, ⟨100, _⟩ => ⟨S512x64, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S512, .f32⟩
  | .hbm, ⟨105, _⟩ => ⟨S100000x1, .i32⟩
  | .hbm, ⟨106, _⟩ => ⟨S512, .f32⟩
  | .hbm, ⟨107, _⟩ => ⟨S_, .f32⟩
  | .hbm, ⟨108, _⟩ => ⟨S512, .f32⟩
  | .hbm, ⟨109, _⟩ => ⟨S512, .f32⟩
  | .hbm, ⟨110, _⟩ => ⟨S512x1, .f32⟩
  | .hbm, ⟨111, _⟩ => ⟨S512x64, .f32⟩
  | .hbm, ⟨112, _⟩ => ⟨S512x64, .f32⟩
  | .hbm, ⟨113, _⟩ => ⟨S512x3, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S64x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S64, .f32⟩
  | .local _ .vmem, ⟨21, _⟩ => ⟨S64, .f32⟩
  | .local _ .vmem, ⟨22, _⟩ => ⟨S64, .f32⟩
  | .local _ .vmem, ⟨23, _⟩ => ⟨S64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S4000x1, .i32⟩
  | .local _ .vmem, ⟨29, _⟩ => ⟨S4000x1, .i32⟩
  | .local _ .vmem, ⟨30, _⟩ => ⟨S512x64, .f32⟩
  | .local _ .vmem, ⟨31, _⟩ => ⟨S512x64, .f32⟩
  | .local _ .vmem, ⟨32, _⟩ => ⟨S64x3, .f32⟩
  | .local _ .vmem, ⟨33, _⟩ => ⟨S3, .f32⟩
  | .local _ .vmem, ⟨34, _⟩ => ⟨S512x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_12 : Ref sig .tc := ⟨.hbm, 101, rfl⟩
abbrev main_v68 : Ref sig .tc := ⟨.hbm, 102, rfl⟩
abbrev main_cst_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc5_stg0_0 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc5_sem0_0 : DmaSem sig := 31
abbrev cc5_sem1_0 : DmaSem sig := 32
abbrev cc5_sem2_0 : DmaSem sig := 33
abbrev cc5_sem3_0 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S512x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S64x3 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S3 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S512x3 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S4000x64_S4000x64 : S4000x64.ShapeCasts S4000x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  inb_S512x64_S512x64_0_0 : ∀ a, (![0, 0] : Fin 2 → Nat) a + S512x64.size a ≤ S512x64.size a
  h_S512x64 : 0 < S512x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x512_d1_w32 : S4000x512.Iotas .tc 32 [1]
  broadcasts_S4000x1_S4000x512 : S4000x1.Broadcasts S4000x512
  natLt_1_32 : 1 < 32
  shapeCasts_S512x64_S512x64 : S512x64.ShapeCasts S512x64
  bcast_S_S512 : S_.BroadcastsInDim S512 (![] : Fin 0 → Fin S512.rank)
  bcast_S100000_S100000x1_0 : S100000.BroadcastsInDim S100000x1 (![0] : Fin 1 → Fin S100000x1.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  inb_S64x3_S64x3_0_0 : ∀ a, (![0, 0] : Fin 2 → Nat) a + S64x3.size a ≤ S64x3.size a
  h_S64x3 : 0 < S64x3.numel
  inb_S3_S3_0 : ∀ a, (![0] : Fin 1 → Nat) a + S3.size a ≤ S3.size a
  h_S3 : 0 < S3.numel
  shapeCasts_S3_S1x3 : S3.ShapeCasts S1x3
  broadcasts_S1x3_S512x3 : S1x3.Broadcasts S512x3
  inb_S512x3_S512x3_0_0 : ∀ a, (![0, 0] : Fin 2 → Nat) a + S512x3.size a ≤ S512x3.size a
  h_S512x3 : 0 < S512x3.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x128_S128x64_S4000x64_1_0_0_1_n_n_wf : DotDims.WF S4000x128 S128x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x64_S4000x64_1_0_0_1_n_n_wf : DotDims.WF S4000x64 S64x64 S4000x64 [1] [0] [0] [1] [] []
  dot_S4000x512_S4000x64_S512x64_0_0_1_1_n_n_wf : DotDims.WF S4000x512 S4000x64 S512x64 [0] [0] [1] [1] [] []
  scatter_S512_S100000x1_S100000_n_0_0_1_wf : ScatterDims.WF S512 S100000x1 S100000 [] [0] [0] 1
  dot_S512x64_S64x3_S512x3_1_0_0_1_n_n_wf : DotDims.WF S512x64 S64x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x64.size a ≤ S100000x64.size a
  hwx3_5 : ∀ i : grid3.Coords, EltTy.bits .f32 = 32 ∨ (Rect.block (s := S100000x64) S4000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S100000x1.size a
  hwx4_1 : ∀ i : grid4.Coords, EltTy.bits .i32 = 32 ∨ (Rect.block (s := S100000x1) S4000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x64.size a ≤ S512x64.size a
  hwx4_2 : ∀ i : grid4.Coords, EltTy.bits .f32 = 32 ∨ (Rect.block (s := S512x64) S512x64.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x64.size a ≤ S512x64.size a
  hwx5_0 : ∀ i : grid5.Coords, EltTy.bits .f32 = 32 ∨ (Rect.block (s := S512x64) S512x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x3.size a ≤ S64x3.size a
  hwx5_1 : ∀ i : grid5.Coords, EltTy.bits .f32 = 32 ∨ (Rect.block (s := S64x3) S64x3.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S3.size a ≤ S3.size a
  hwx5_2 : ∀ i : grid5.Coords, EltTy.bits .f32 = 32 ∨ (Rect.block (s := S3) S3.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S512x3.size a ≤ S512x3.size a
  hwx5_3 : ∀ i : grid5.Coords, EltTy.bits .f32 = 32 ∨ (Rect.block (s := S512x3) S512x3.size (cc5_transform_3 i) (hinb5_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x512_S4000x64_S512x64_0_0_1_1_n_n : DotDims S4000x512 S4000x64 S512x64 where
  lhsContracting := [0]
  rhsContracting := [0]
  lhsNonContracting := [1]
  rhsNonContracting := [1]
  lhsBatch := []
  rhsBatch := []
  wf := dot_S4000x512_S4000x64_S512x64_0_0_1_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x3_S512x3_1_0_0_1_n_n : DotDims S512x64 S64x3 S512x3 where
  lhsContracting := [1]
  rhsContracting := [0]
  lhsNonContracting := [0]
  rhsNonContracting := [1]
  lhsBatch := []
  rhsBatch := []
  wf := dot_S512x64_S64x3_S512x3_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S4000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v65) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v67) S512x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S512x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S64x3.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg14) S3.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v77) S512x3.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S100000x64 : Shape := ⟨2, ![100000, 64]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x3 : Shape := ⟨2, ![512, 3]⟩
abbrev S1x3 : Shape := ⟨2, ![1, 3]⟩

abbrev nBuf : Space → Nat
  | .hbm => 191
  | .vmem => 0
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64, .f32⟩
  | 12 => ⟨S64, .f32⟩
  | 13 => ⟨S64x3, .f32⟩
  | 14 => ⟨S3, .f32⟩
  | 15 => ⟨S2x3200000, .i32⟩
  | 16 => ⟨S100000, .i32⟩
  | 17 => ⟨S1x3200000, .i32⟩
  | 18 => ⟨S3200000, .i32⟩
  | 19 => ⟨S1x3200000, .i32⟩
  | 20 => ⟨S3200000, .i32⟩
  | 21 => ⟨S100000x64, .f32⟩
  | 22 => ⟨S100000, .i32⟩
  | 23 => ⟨S3300000, .i32⟩
  | 24 => ⟨S3300000, .i32⟩
  | 25 => ⟨S_, .f32⟩
  | 26 => ⟨S3300000, .f32⟩
  | 27 => ⟨S_, .f32⟩
  | 28 => ⟨S100000, .f32⟩
  | 29 => ⟨S3300000x1, .i32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000, .f32⟩
  | 57 => ⟨S3300000, .f32⟩
  | 58 => ⟨S_, .i32⟩
  | 59 => ⟨S3300000, .i32⟩
  | 60 => ⟨S3300000, .i1⟩
  | 61 => ⟨S_, .i32⟩
  | 62 => ⟨S3300000, .i32⟩
  | 63 => ⟨S3300000, .i32⟩
  | 64 => ⟨S3300000, .i32⟩
  | 65 => ⟨S3300000x1, .i32⟩
  | 66 => ⟨S3300000x64, .f32⟩
  | 67 => ⟨S3300000x1, .f32⟩
  | 68 => ⟨S3300000x64, .f32⟩
  | 69 => ⟨S3300000x64, .f32⟩
  | 70 => ⟨S_, .f32⟩
  | 71 => ⟨S100000x64, .f32⟩
  | 72 => ⟨S3300000x1, .i32⟩
  | 73 => ⟨S100000x64, .f32⟩
  | 74 => ⟨S1x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S64, .f32⟩
  | 82 => ⟨S64, .f32⟩
  | 83 => ⟨S64, .f32⟩
  | 84 => ⟨S1x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S100000, .i32⟩
  | 98 => ⟨S3300000, .i32⟩
  | 99 => ⟨S3300000, .i32⟩
  | 100 => ⟨S_, .f32⟩
  | 101 => ⟨S3300000, .f32⟩
  | 102 => ⟨S_, .f32⟩
  | 103 => ⟨S100000, .f32⟩
  | 104 => ⟨S3300000x1, .i32⟩
  | 105 => ⟨S100000, .f32⟩
  | 106 => ⟨S_, .f32⟩
  | 107 => ⟨S100000, .f32⟩
  | 108 => ⟨S100000, .i1⟩
  | 109 => ⟨S100000, .f32⟩
  | 110 => ⟨S_, .f32⟩
  | 111 => ⟨S_, .f32⟩
  | 112 => ⟨S100000, .f32⟩
  | 113 => ⟨S100000, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000, .f32⟩
  | 123 => ⟨S_, .i32⟩
  | 124 => ⟨S3300000, .i32⟩
  | 125 => ⟨S3300000, .i1⟩
  | 126 => ⟨S_, .i32⟩
  | 127 => ⟨S3300000, .i32⟩
  | _ => ⟨S100000x128, .f32⟩

abbrev hbmTy0_1 (i : Nat) : BufTy := match i % 128 with
  | 0 => ⟨S3300000, .i32⟩
  | 1 => ⟨S3300000, .i32⟩
  | 2 => ⟨S3300000x1, .i32⟩
  | 3 => ⟨S3300000, .f32⟩
  | 4 => ⟨S3300000, .f32⟩
  | 5 => ⟨S_, .i32⟩
  | 6 => ⟨S3300000, .i32⟩
  | 7 => ⟨S3300000, .i1⟩
  | 8 => ⟨S_, .i32⟩
  | 9 => ⟨S3300000, .i32⟩
  | 10 => ⟨S3300000, .i32⟩
  | 11 => ⟨S3300000, .i32⟩
  | 12 => ⟨S3300000x1, .i32⟩
  | 13 => ⟨S3300000x64, .f32⟩
  | 14 => ⟨S3300000x1, .f32⟩
  | 15 => ⟨S3300000x64, .f32⟩
  | 16 => ⟨S3300000x64, .f32⟩
  | 17 => ⟨S_, .f32⟩
  | 18 => ⟨S100000x64, .f32⟩
  | 19 => ⟨S3300000x1, .i32⟩
  | 20 => ⟨S100000x64, .f32⟩
  | 21 => ⟨S1x64, .f32⟩
  | 22 => ⟨S100000x64, .f32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S64, .f32⟩
  | 29 => ⟨S64, .f32⟩
  | 30 => ⟨S64, .f32⟩
  | 31 => ⟨S1x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S1x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S_, .f32⟩
  | 44 => ⟨S512x64, .f32⟩
  | 45 => ⟨S100000x1, .i32⟩
  | 46 => ⟨S512x64, .f32⟩
  | 47 => ⟨S_, .f32⟩
  | 48 => ⟨S100000, .f32⟩
  | 49 => ⟨S_, .f32⟩
  | 50 => ⟨S512, .f32⟩
  | 51 => ⟨S100000x1, .i32⟩
  | 52 => ⟨S512, .f32⟩
  | 53 => ⟨S_, .f32⟩
  | 54 => ⟨S512, .f32⟩
  | 55 => ⟨S512, .f32⟩
  | 56 => ⟨S512x1, .f32⟩
  | 57 => ⟨S512x64, .f32⟩
  | 58 => ⟨S512x64, .f32⟩
  | 59 => ⟨S512x3, .f32⟩
  | 60 => ⟨S1x3, .f32⟩
  | 61 => ⟨S512x3, .f32⟩
  | 62 => ⟨S512x3, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_9 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_call1_cst : Ref sig .tc := ⟨.hbm, 93, rfl⟩
abbrev main_call1_v0 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_10 : Ref sig .tc := ⟨.hbm, 100, rfl⟩
abbrev main_v67 : Ref sig .tc := ⟨.hbm, 101, rfl⟩
abbrev main_cst_11 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_12 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_13 : Ref sig .tc := ⟨.hbm, 110, rfl⟩
abbrev main_call2_v0 : Ref sig .tc := ⟨.hbm, 111, rfl⟩
abbrev main_call2_v1 : Ref sig .tc := ⟨.hbm, 112, rfl⟩
abbrev main_v74 : Ref sig .tc := ⟨.hbm, 113, rfl⟩
abbrev main_c_14 : Ref sig .tc := ⟨.hbm, 114, rfl⟩
abbrev main_v75 : Ref sig .tc := ⟨.hbm, 115, rfl⟩
abbrev main_v76 : Ref sig .tc := ⟨.hbm, 116, rfl⟩
abbrev main_c_15 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_16 : Ref sig .tc := ⟨.hbm, 123, rfl⟩
abbrev main_v82 : Ref sig .tc := ⟨.hbm, 124, rfl⟩
abbrev main_v83 : Ref sig .tc := ⟨.hbm, 125, rfl⟩
abbrev main_c_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_c_18 : Ref sig .tc := ⟨.hbm, 133, rfl⟩
abbrev main_v90 : Ref sig .tc := ⟨.hbm, 134, rfl⟩
abbrev main_v91 : Ref sig .tc := ⟨.hbm, 135, rfl⟩
abbrev main_c_19 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_20 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_21 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_call3_cst : Ref sig .tc := ⟨.hbm, 168, rfl⟩
abbrev main_call3_v0 : Ref sig .tc := ⟨.hbm, 169, rfl⟩
abbrev main_v121 : Ref sig .tc := ⟨.hbm, 170, rfl⟩
abbrev main_cst_22 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_23 : Ref sig .tc := ⟨.hbm, 175, rfl⟩
abbrev main_v125 : Ref sig .tc := ⟨.hbm, 176, rfl⟩
abbrev main_cst_24 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_25 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S3_S1x3_1 : S3.BroadcastsInDim S1x3 (![1] : Fin 1 → Fin S1x3.rank)
  bcast_S1x3_S512x3_0_1 : S1x3.BroadcastsInDim S512x3 (![0, 1] : Fin 2 → Fin S512x3.rank)
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x3_S512x3_1_0_0_1_n_n_wf : DotDims.WF S512x64 S64x3 S512x3 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x3_S512x3_1_0_0_1_n_n : DotDims S512x64 S64x3 S512x3 where
  lhsContracting := [1]
  rhsContracting := [0]
  lhsNonContracting := [0]
  rhsNonContracting := [1]
  lhsBatch := []
  rhsBatch := []
  wf := dot_S512x64_S64x3_S512x3_1_0_0_1_n_n_wf

class Facts : Prop extends Facts₀ where

variable [Facts]
-- ==== Proof.Spec.lean ====
/-
  A graph convolution network's forward pass, as whole-array functions over the extended reals.

  Two convolution layers, each a dense product followed by a neighbourhood sum (the second is carried
  by both programs through the same host operations and is never opened here) and a normalisation with
  a rectifier, then per-graph sums, a division by the graph sizes (again shared), and a dense classifier.
  This module only NAMES the four functions the two programs compute in different ways:

    * `dense1`, `dense2`, `classify`: a matrix product, entry (r, j) = Σ_k X[r,k] · W[k,j] (plus a bias row
      for the classifier);
    * `bnRelu`: entry (r, j) = max ((X[r,j] − μ[j]) · rsqrt(σ²[j] + ε) · γ[j] + β[j], 0);
    * `poolSum`: entry (g, j) = Σ_r [ids[r] = g] · X[r,j], the indicator read as the numbers 1 and 0.

  No finiteness is needed anywhere: each is the same expression on both sides, sums of extended reals
  being commutative and associative and 0 · x = 0, 1 · x = x holding for every extended real x.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

abbrev SNxF : Shape := ⟨2, ![100000, 128]⟩
abbrev SFxH : Shape := ⟨2, ![128, 64]⟩
abbrev SNxH : Shape := ⟨2, ![100000, 64]⟩
abbrev SHxH : Shape := ⟨2, ![64, 64]⟩
abbrev SH : Shape := ⟨1, ![64]⟩
abbrev SN : Shape := ⟨1, ![100000]⟩
abbrev SGxH : Shape := ⟨2, ![512, 64]⟩
abbrev SHxC : Shape := ⟨2, ![64, 3]⟩
abbrev SC : Shape := ⟨1, ![3]⟩
abbrev SGxC : Shape := ⟨2, ![512, 3]⟩

/-- The first layer's dense product: entry (r, j) is Σ_k X[r,k] · W[k,j] over the 128 input features. -/
def dense1 (x : SNxF.Idx → EReal) (w : SFxH.Idx → EReal) : SNxH.Idx → EReal :=
  fun i => ∑ k : Fin 128, x (ix2 (i 0) k) * w (ix2 k (i 1))

/-- The second layer's dense product: entry (r, j) is Σ_k X[r,k] · W[k,j] over the 64 hidden features. -/
def dense2 (x : SNxH.Idx → EReal) (w : SHxH.Idx → EReal) : SNxH.Idx → EReal :=
  fun i => ∑ k : Fin 64, x (ix2 (i 0) k) * w (ix2 k (i 1))

/-- The variance offset ε of the normalisation, the single-precision word both programs carry. -/
abbrev eps : EReal := Ideal.ofBits .f32 0x3727C5AC#32

/-- Normalisation by running statistics, then the rectifier: column j of X is shifted by μ[j], scaled by
    rsqrt(σ²[j] + ε) and by γ[j], shifted by β[j], and cut below at the single-precision zero word. -/
def bnRelu (x : SNxH.Idx → EReal) (g bt rm rv : SH.Idx → EReal) : SNxH.Idx → EReal :=
  fun i => max ((x i - rm (ix1 (i 1))) * Ideal.rsqrt (rv (ix1 (i 1)) + eps) * g (ix1 (i 1)) + bt (ix1 (i 1)))
    (Ideal.ofBits .f32 0x00000000#32)

/-- The indicator of "node r belongs to graph g" as a number: the graph id read as a 32-bit word. -/
def hot (b : BitVec 32) (g : Nat) : EReal := if b = BitVec.ofNat 32 g then 1 else 0

/-- Per-graph sums: entry (g, j) adds X[r,j] over the nodes r whose graph id is g; an id that names no graph
    (negative, or 512 and above) matches no row and adds nothing. -/
def poolSum (x : SNxH.Idx → EReal) (ids : SN.Idx → BitVec 32) : SGxH.Idx → EReal :=
  fun i => ∑ r : Fin 100000, hot (ids (ix1 r)) (i 0).val * x (ix2 r (i 1))

/-- The classifier: entry (g, c) is Σ_k P[g,k] · W[k,c] over the 64 hidden features, plus the bias b[c]. -/
def classify (p : SGxH.Idx → EReal) (w : SHxC.Idx → EReal) (b : SC.Idx → EReal) : SGxC.Idx → EReal :=
  fun i => (∑ k : Fin 64, p (ix2 (i 0) k) * w (ix2 k (i 1))) + b (ix1 (i 1))

end Cert.Gcn

end
-- ==== Proof.Chains.lean ====
/-
  The host stretches the two programs share, each named once as a function of what it reads.

  Both programs prepare the graph the same way (the edge list extended by one self loop per node, the node
  degrees summed over the extended targets, each edge weighted by the product of its two ends' inverse root
  degrees), sum the weighted rows of a feature matrix into the rows their edges point at and add a bias
  (`aggregate`), normalise and rectify (`normRelu`), sum the node rows into their graphs (`graphSum`), divide by
  the graph sizes floored at one (`meanDiv`) and classify (`logits`). Every operation here is one the reference's
  program prints; the functions are its own composed term cut at the places where the kernel's program calls
  a device kernel instead, so that neither side's proof ever opens a gather or a scatter over the edge list.
-/
import proofs.«409920_j60619168416467_1_alg».proof.Proof.Gen.ReferenceIdeal

set_option maxRecDepth 8192

noncomputable section

namespace Cert.ReferenceIdeal.Chain

open Cert.ReferenceIdeal Cert.ReferenceIdeal.Gen Idealize.ShloMosaic Idealize.ShloMosaic.TcCoe

variable {F : FTy → Type} [FloatOps F]

/-- A layer's neighbourhood sum: row d of the result adds, over every edge (s, d) of the self-looped graph,
    row s of `h` weighted by the edge's normalisation, and then the bias row `b`. -/
def aggregate (ei : (⟨S2x3200000, .i32⟩ : BufTy).Contents (Elt F)) (h : (⟨S100000x64, .f32⟩ : BufTy).Contents (Elt F))
    (b : (⟨S64, .f32⟩ : BufTy).Contents (Elt F)) : (⟨S100000x64, .f32⟩ : BufTy).Contents (Elt F) :=
  (addf (Host.scatterAdd scatter_S100000x64_S3300000x1_S3300000x64_1_0_0_1 (broadcastInDim S100000x64 ![] bcast_S_S100000x64 (constant (F := F) S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (mulf (Host.gather gather_S100000x64_S3300000x1_S3300000x64_1_0_n_n_0_1_164 h (broadcastInDim S3300000x1 ![0] bcast_S3300000_S3300000x1_0 (select (cmpi .slt (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0)))) (broadcastInDim S3300000x64 ![0, 1] bcast_S3300000x1_S3300000x64_0_1 (broadcastInDim S3300000x1 ![0] bcast_S3300000_S3300000x1_0 (mulf (Host.gather gather_S100000_S3300000x1_S3300000_n_0_n_n_0_1_1 (select (cmpf .ogt (Host.scatterAdd scatter_S100000_S3300000x1_S3300000_n_0_0_1 (broadcastInDim S100000 ![] bcast_S_S100000 (constant (F := F) S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant (F := F) S_ .f32 0x3F800000#32))) (broadcastInDim S100000 ![] bcast_S_S100000 (constant (F := F) S_ .f32 0x00000000#32))) (Host.rsqrt (Host.scatterAdd scatter_S100000_S3300000x1_S3300000_n_0_0_1 (broadcastInDim S100000 ![] bcast_S_S100000 (constant (F := F) S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant (F := F) S_ .f32 0x3F800000#32)))) (broadcastInDim S100000 ![] bcast_S_S100000 (id (constant (F := F) S_ .f32 0x00000000#32)))) (broadcastInDim S3300000x1 ![0] bcast_S3300000_S3300000x1_0 (select (cmpi .slt (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf .ogt (Host.scatterAdd scatter_S100000_S3300000x1_S3300000_n_0_0_1 (broadcastInDim S100000 ![] bcast_S_S100000 (constant (F := F) S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant (F := F) S_ .f32 0x3F800000#32))) (broadcastInDim S100000 ![] bcast_S_S100000 (constant (F := F) S_ .f32 0x00000000#32))) (Host.rsqrt (Host.scatterAdd scatter_S100000_S3300000x1_S3300000_n_0_0_1 (broadcastInDim S100000 ![] bcast_S_S100000 (constant (F := F) S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant (F := F) S_ .f32 0x3F800000#32)))) (broadcastInDim S100000 ![] bcast_S_S100000 (id (constant (F := F) S_ .f32 0x00000000#32)))) (broadcastInDim S3300000x1 ![0] bcast_S3300000_S3300000x1_0 (select (cmpi .slt (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0))))))))) (broadcastInDim S100000x64 ![0, 1] bcast_S1x64_S100000x64_0_1 (broadcastInDim S1x64 ![1] bcast_S64_S1x64_1 b)))

/-- Normalisation by running statistics and the rectifier, as the reference's program spells them. -/
def normRelu (x : (⟨S100000x64, .f32⟩ : BufTy).Contents (Elt F)) (g bt rm rv : (⟨S64, .f32⟩ : BufTy).Contents (Elt F)) :
    (⟨S100000x64, .f32⟩ : BufTy).Contents (Elt F) :=
  (maximumf (addf (mulf (mulf (subf x (broadcastInDim S100000x64 ![0, 1] bcast_S1x64_S100000x64_0_1 (broadcastInDim S1x64 ![1] bcast_S64_S1x64_1 rm))) (broadcastInDim S100000x64 ![0, 1] bcast_S1x64_S100000x64_0_1 (broadcastInDim S1x64 ![1] bcast_S64_S1x64_1 (Host.rsqrt (addf rv (broadcastInDim S64 ![] bcast_S_S64 (constant (F := F) S_ .f32 0x3727C5AC#32))))))) (broadcastInDim S100000x64 ![0, 1] bcast_S1x64_S100000x64_0_1 (broadcastInDim S1x64 ![1] bcast_S64_S1x64_1 g))) (broadcastInDim S100000x64 ![0, 1] bcast_S1x64_S100000x64_0_1 (broadcastInDim S1x64 ![1] bcast_S64_S1x64_1 bt))) (broadcastInDim S100000x64 ![] bcast_S_S100000x64 (constant (F := F) S_ .f32 0x00000000#32)))

/-- The per-graph sums as the reference's program spells them: a scatter of the node rows, added, into 512 zero rows. -/
def graphSum (h : (⟨S100000x64, .f32⟩ : BufTy).Contents (Elt F)) (batch : (⟨S100000, .i32⟩ : BufTy).Contents (Elt F)) :
    (⟨S512x64, .f32⟩ : BufTy).Contents (Elt F) :=
  (Host.scatterAdd scatter_S512x64_S100000x1_S100000x64_1_0_0_1 (broadcastInDim S512x64 ![] bcast_S_S512x64 (constant (F := F) S_ .f32 0x00000000#32)) (broadcastInDim S100000x1 ![0] bcast_S100000_S100000x1_0 batch) h)

/-- The per-graph sums divided by the graph sizes, a size below one read as one. -/
def meanDiv (sums : (⟨S512x64, .f32⟩ : BufTy).Contents (Elt F)) (batch : (⟨S100000, .i32⟩ : BufTy).Contents (Elt F)) :
    (⟨S512x64, .f32⟩ : BufTy).Contents (Elt F) :=
  (Host.divf sums (broadcastInDim S512x64 ![0, 1] bcast_S512x1_S512x64_0_1 (broadcastInDim S512x1 ![0] bcast_S512_S512x1_0 (maximumf (Host.scatterAdd scatter_S512_S100000x1_S100000_n_0_0_1 (broadcastInDim S512 ![] bcast_S_S512 (constant (F := F) S_ .f32 0x00000000#32)) (broadcastInDim S100000x1 ![0] bcast_S100000_S100000x1_0 batch) (broadcastInDim S100000 ![] bcast_S_S100000 (constant (F := F) S_ .f32 0x3F800000#32))) (broadcastInDim S512 ![] bcast_S_S512 (constant (F := F) S_ .f32 0x3F800000#32))))))

/-- The classifier as the reference's program spells it: a dense product plus the bias row. -/
def logits (p : (⟨S512x64, .f32⟩ : BufTy).Contents (Elt F)) (w : (⟨S64x3, .f32⟩ : BufTy).Contents (Elt F))
    (bc : (⟨S3, .f32⟩ : BufTy).Contents (Elt F)) : (⟨S512x3, .f32⟩ : BufTy).Contents (Elt F) :=
  addf (Host.dotGeneral dot_S512x64_S64x3_S512x3_1_0_0_1_n_n none p w) (broadcastInDim S512x3 ![0, 1] bcast_S1x3_S512x3_0_1 (broadcastInDim S1x3 ![1] bcast_S3_S1x3_1 bc))

/-- The first layer's dense product as the reference's program spells it. -/
def product1 (x : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none x w

/-- The second layer's dense product as the reference's program spells it. -/
def product2 (x : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none x w

end Cert.ReferenceIdeal.Chain

end
-- ==== Proof.Reg0.lean ====
/-
  Region 0, the first layer's dense product, read as one whole-array function.

  The region walks the 100000 rows of X in 25 blocks of 4000 rows, W staying whole.  At block t the body
  multiplies rows [4000 t, 4000 t + 4000) of X by W: entry (p, q) of what it stores is
  Σ_k X[4000 t + p, k] · W[k, q] over the 128 contracted features (narrowing an operand is the identity on
  extended reals, and the accumulator starts at the zero word, which adds nothing).  That is entry
  (4000 t + p, q) of `dense1 X W`.  Row r lies in block r / 4000, so the 25 blocks cover the array, and
  the array the region leaves is `dense1 X W`.
-/
import proofs.«409920_j60619168416467_1_alg».proof.Proof.Gen.KernelIdeal.Frame
import proofs.«409920_j60619168416467_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The two zero offsets of a whole-block access, as a constant function. -/
theorem zeroOffsets0 : (![0, 0] : Fin 2 → Nat) = fun _ => 0 := funext fun a => by fin_cases a <;> rfl

/-! ## The product at an entry -/

/-- The left operand is read at the output's row … -/
theorem lhsRow0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- … and the contracted feature; -/
theorem lhsCol0 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
/-- the right operand at the contracted feature … -/
theorem rhsRow0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
/-- … and the output's column. -/
theorem rhsCol0 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- What the body stores, at entry (p, q) of the block: Σ_k x0[p,k] · x1[k,q]. -/
theorem product0_apply (x0 : Vec Ideal S4000x128 .f32) (x1 : Vec Ideal S128x64 .f32) (p : Fin 4000) (q : Fin 64) :
    k0_pay1 (F := Ideal) x0 x1 (ix2 p q) = ∑ k : Fin 128, x0 (ix2 p k) * x1 (ix2 k q) := by
  unfold k0_pay1
  show FloatOps.matmul dot_S4000x128_S128x64_S4000x64_1_0_0_1_n_n none (truncf .bf16 x0 bitsLt_bf16_f32) (truncf .bf16 x1 bitsLt_bf16_f32)
    (constant (F := Ideal) S4000x64 .f32 0x00000000#32) (ix2 p q) = _
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact lhsRow0 _ _
    | ⟨1, _⟩ => exact (lhsCol0 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (rhsRow0 _ _).trans hk
    | ⟨1, _⟩ => exact rhsCol0 _ _)
  rw [truncf_apply, truncf_apply, el, er]

/-! ## The blocks -/

/-- The block index maps over the 25 blocks: X's block and the output's block move down with the block
    number, W's block stays at the origin. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- X's block at block t is rows 4000 t … 4000 t + 3999 of X. -/
theorem lhsBlock0_apply (c : Dev nD) (t : Fin cfg0.N) (x : S4000x128.Idx) (i : S100000x128.Idx)
    (h0 : (i 0).val = 4000 * t.val + (x 0).val) (h1 : (i 1).val = (x 1).val) :
    (iblk0 V c 0 t : Vec Ideal S4000x128 .f32) x = (V c main_arg0 : S100000x128.Idx → EReal) i := by
  obtain ⟨e0, e1, -, -, -, -⟩ := blockIndex0 t
  show V c main_arg0 (((cfg0.win 0).blk t).view.emb x) = V c main_arg0 i
  congr 1
  funext a
  apply Fin.ext
  match a with
  | ⟨0, _⟩ => show win0_0.index t (0 : Fin 2) * 4000 + 1 * (x 0).val = (i 0).val; rw [e0, h0]; omega
  | ⟨1, _⟩ => show win0_0.index t (1 : Fin 2) * 128 + 1 * (x 1).val = (i 1).val; rw [e1, h1]; omega

/-- W's block at every block is W. -/
theorem rhsBlock0_apply (c : Dev nD) (t : Fin cfg0.N) (x : S128x64.Idx) :
    (iblk0 V c 1 t : Vec Ideal S128x64 .f32) x = (V c main_arg1 : S128x64.Idx → EReal) x := by
  obtain ⟨-, -, e2, e3, -, -⟩ := blockIndex0 t
  show V c main_arg1 (((cfg0.win 1).blk t).view.emb x) = V c main_arg1 x
  congr 1
  funext a
  apply Fin.ext
  match a with
  | ⟨0, _⟩ => show win0_1.index t (0 : Fin 2) * 128 + 1 * (x 0).val = (x 0).val; rw [e2]; omega
  | ⟨1, _⟩ => show win0_1.index t (1 : Fin 2) * 64 + 1 * (x 1).val = (x 1).val; rw [e3]; omega

/-- WHAT BLOCK t WRITES BACK is block t of the product of the whole arrays. -/
theorem flushed0_eq (c : Dev nD) (t : Fin cfg0.N) :
    (dat0 (F := Ideal) V c).flushed 2 t
      = ((cfg0.win 2).blk t).view.read (Elt Ideal) (Cert.Gcn.dense1 (V c main_arg0) (V c main_arg1)) := by
  show (cfg0.win 2).cut (grid0.coords t) ((dat0 (F := Ideal) V c).after 2 t) = _
  rw [after0_2]
  unfold out0_2
  rw [View.canon_unit_zero zeroOffsets0]
  simp only [View.ld_unit_zero (S := S4000x128) zeroOffsets0, View.ld_unit_zero (S := S128x64) zeroOffsets0]
  obtain ⟨-, -, -, -, e4, e5⟩ := blockIndex0 t
  funext j
  show k0_pay1 (F := Ideal) (iblk0 V c 0 t) (iblk0 V c 1 t) j
    = Cert.Gcn.dense1 (V c main_arg0) (V c main_arg1) (((cfg0.win 2).blk t).view.emb j)
  obtain ⟨p, q, rfl⟩ : ∃ (p : Fin 4000) (q : Fin 64), j = ix2 p q := ⟨j 0, j 1, eq_ix2 j⟩
  refine (product0_apply (iblk0 V c 0 t) (iblk0 V c 1 t) p q).trans ?_
  unfold Cert.Gcn.dense1
  refine Finset.sum_congr rfl fun k _ => ?_
  have hr : ((((cfg0.win 2).blk t).view.emb (ix2 p q)) 0).val = 4000 * t.val + p.val := by
    show win0_2.index t (0 : Fin 2) * 4000 + 1 * p.val = _; rw [e4]; omega
  have hc : ((((cfg0.win 2).blk t).view.emb (ix2 p q)) 1).val = q.val := by
    show win0_2.index t (1 : Fin 2) * 64 + 1 * q.val = _; rw [e5]; omega
  rw [lhsBlock0_apply V c t (ix2 p k) (ix2 ((((cfg0.win 2).blk t).view.emb (ix2 p q)) 0) k) hr rfl,
    rhsBlock0_apply V c t (ix2 k q)]
  congr 2
  funext a
  apply Fin.ext
  match a with
  | ⟨0, _⟩ => rfl
  | ⟨1, _⟩ => exact hc.symm

/-! ## From the blocks to the array -/

/-- A row and column lie in block t iff each coordinate is in the block's range on its axis. -/
theorem mem_block0 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v30).slice (win0_2.rect t)).set ↔ _
  rw [View.set_slice_whole, Rect.mem_set_unit]
  exact Iff.rfl

/-- Row r lies in block r / 4000: the 25 blocks cover the array. -/
theorem covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 25 := N_0
  have ht : (i 0).val / 4000 < cfg0.N := by rw [hN]; omega
  obtain ⟨-, -, -, -, e4, e5⟩ := blockIndex0 ⟨(i 0).val / 4000, ht⟩
  refine ⟨⟨(i 0).val / 4000, ht⟩, flush0_2 _, ?_⟩
  rw [mem_block0]
  intro a
  match a with
  | ⟨0, _⟩ =>
    show win0_2.index ⟨(i 0).val / 4000, ht⟩ (0 : Fin 2) * 4000 ≤ (i 0).val ∧ (i 0).val < win0_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, ht⟩ (1 : Fin 2) * 64 ≤ (i 1).val ∧ (i 1).val < win0_2.index ⟨(i 0).val / 4000, ht⟩ (1 : Fin 2) * 64 + 64
    rw [e5]; omega

/-- THE ARRAY the region leaves is the product of the whole arrays. -/
theorem final0 (c : Dev nD) : (dat0 (F := Ideal) V c).arrAt 2 cfg0.N = Cert.Gcn.dense1 (V c main_arg0) (V c main_arg1) :=
  (dat0 (F := Ideal) V c).arrAt_eq_of_cover 2 (Cert.Gcn.dense1 (V c main_arg0) (V c main_arg1))
    (fun t _ => flushed0_eq V c t) covered0

end Cert.KernelIdeal.RegionValue

end
-- ==== Proof.Reg1.lean ====
/- Region 1 (the first normalisation and rectifier), read as a value.
   The body stores, at entry (p, q) of its 4000-row block, max ((x[p,q] − μ[q]) · rsqrt(σ²[q] + ε) · γ[q] + β[q], 0):
   the four per-column vectors are laid along every row (a vector seen as a 1×64 row, repeated 4000 times), so the
   entry reads each of them at column q only. The input block at grid point t is rows 4000·t … 4000·t + 3999 of the
   input array, exactly the rows of the output block at t, and each vector's one block is the whole vector; hence what
   point t writes back is block t of the whole-array function `Cert.Gcn.bnRelu` of the arrays at region entry. The 25
   blocks cover all 100000 rows (row r is in block r / 4000), so the output array ends holding that function. -/
import proofs.«409920_j60619168416467_1_alg».proof.Proof.Gen.KernelIdeal.Frame
import proofs.«409920_j60619168416467_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace Norm1

/-- A row vector laid along the columns of every row: entry (p, q) of the broadcast is entry q of the vector. -/
theorem rowBcast_apply {α : Type} (v : S64.Idx → α) (h1 : S64.ShapeCasts S1x64) (h2 : S1x64.Broadcasts S4000x64)
    (p : Fin 4000) (q : Fin 64) :
    broadcastTo S4000x64 (shapeCast S1x64 v h1) h2 (ix2 p q) = v (ix1 q) := by
  rw [broadcastTo_apply _ h2 (ix2 p q) (ix2 (0 : Fin 1) q) (by
    intro a
    match a with
    | ⟨0, _⟩ => rfl
    | ⟨1, _⟩ => rfl)]
  exact (shapeCast_addUnit_apply ![64] v h1 (ix2 (0 : Fin 1) q)).trans
    (congrArg v (funext fun a => by match a with | ⟨0, _⟩ => rfl))

/-- The body's stored value at entry (p, q): the normalised, scaled and shifted entry, cut below at the zero word. -/
theorem pay1_apply (x0 : Vec Ideal S4000x64 .f32) (x1 x2 x3 x4 : Vec Ideal S64 .f32) (p : Fin 4000) (q : Fin 64) :
    k1_pay1 (F := Ideal) x0 x1 x2 x3 x4 (ix2 p q)
      = max ((x0 (ix2 p q) - x3 (ix1 q)) * Ideal.rsqrt (x4 (ix1 q) + Cert.Gcn.eps) * x1 (ix1 q) + x2 (ix1 q))
          (Ideal.ofBits .f32 0x00000000#32) := by
  unfold k1_pay1
  rw [maximumf_apply, addf_apply, mulf_apply, mulf_apply, subf_apply, broadcast_apply,
    rowBcast_apply, rowBcast_apply, rowBcast_apply, rowBcast_apply, shapeCast_self]
  rfl

/-- One entry of the block against one entry of the whole-array function: if the five values the body reads at
    (p, q) are the array entries the function reads at i, the stored value is the function's entry at i. -/
theorem pay1_entry (x0 : Vec Ideal S4000x64 .f32) (x1 x2 x3 x4 : Vec Ideal S64 .f32)
    (X : Cert.Gcn.SNxH.Idx → EReal) (g bt rm rv : Cert.Gcn.SH.Idx → EReal)
    (p : Fin 4000) (q : Fin 64) (i : Cert.Gcn.SNxH.Idx)
    (h0 : x0 (ix2 p q) = X i) (h1 : x1 (ix1 q) = g (ix1 (i 1))) (h2 : x2 (ix1 q) = bt (ix1 (i 1)))
    (h3 : x3 (ix1 q) = rm (ix1 (i 1))) (h4 : x4 (ix1 q) = rv (ix1 (i 1))) :
    k1_pay1 (F := Ideal) x0 x1 x2 x3 x4 (ix2 p q) = Cert.Gcn.bnRelu X g bt rm rv i := by
  rw [pay1_apply, h0, h1, h2, h3, h4]
  rfl

theorem zero2 : (![0, 0] : Fin 2 → Nat) = fun _ => 0 := funext fun a => by fin_cases a <;> rfl
theorem zero1 : (![0] : Fin 1 → Nat) = fun _ => 0 := funext fun a => by fin_cases a <;> rfl

/-- The windows' index maps over the 25 grid points: the input rows and the output rows sit at block t, column block 0;
    each of the four per-column vectors is always its one block. -/
theorem index_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 1) = 0 ∧ win1_2.index t (0 : Fin 1) = 0
    ∧ win1_3.index t (0 : Fin 1) = 0 ∧ win1_4.index t (0 : Fin 1) = 0 :=
  (by decide +kernel : ∀ t : Fin grid1.N, _)

/-- The input block at point t is the rows of the input array under the output block at t. -/
theorem rows_read (c : Dev nD) (t : Fin cfg1.N) (p : Fin 4000) (q : Fin 64) :
    iblk1 (F := Ideal) V c 0 t (ix2 p q) = V c main_v46 (((cfg1.win 5).blk t).view.emb (ix2 p q)) := by
  obtain ⟨e0, e1, e2, e3, -⟩ := index_facts1 t
  show V c main_v46 (((cfg1.win 0).blk t).view.emb (ix2 p q)) = V c main_v46 (((cfg1.win 5).blk t).view.emb (ix2 p q))
  refine congrArg (V c main_v46) (funext fun a => Fin.ext ?_)
  match a with
  | ⟨0, _⟩ => show win1_0.index t (0 : Fin 2) * 4000 + 1 * p.val = win1_5.index t (0 : Fin 2) * 4000 + 1 * p.val; omega
  | ⟨1, _⟩ => show win1_0.index t (1 : Fin 2) * 64 + 1 * q.val = win1_5.index t (1 : Fin 2) * 64 + 1 * q.val; omega

/-- The scale vector's one block is the whole vector: its entry q is the array's entry at the column of the output index. -/
theorem scale_read (c : Dev nD) (t : Fin cfg1.N) (p : Fin 4000) (q : Fin 64) :
    iblk1 (F := Ideal) V c 1 t (ix1 q) = V c main_arg3 (ix1 ((((cfg1.win 5).blk t).view.emb (ix2 p q)) 1)) := by
  obtain ⟨-, -, -, e3, e4, -⟩ := index_facts1 t
  show V c main_arg3 (((cfg1.win 1).blk t).view.emb (ix1 q)) = V c main_arg3 (ix1 ((((cfg1.win 5).blk t).view.emb (ix2 p q)) 1))
  refine congrArg (V c main_arg3) (funext fun a => Fin.ext ?_)
  match a with
  | ⟨0, _⟩ => show win1_1.index t (0 : Fin 1) * 64 + 1 * q.val = win1_5.index t (1 : Fin 2) * 64 + 1 * q.val; omega

/-- The same for the shift vector, -/
theorem shift_read (c : Dev nD) (t : Fin cfg1.N) (p : Fin 4000) (q : Fin 64) :
    iblk1 (F := Ideal) V c 2 t (ix1 q) = V c main_arg4 (ix1 ((((cfg1.win 5).blk t).view.emb (ix2 p q)) 1)) := by
  obtain ⟨-, -, -, e3, -, e5, -⟩ := index_facts1 t
  show V c main_arg4 (((cfg1.win 2).blk t).view.emb (ix1 q)) = V c main_arg4 (ix1 ((((cfg1.win 5).blk t).view.emb (ix2 p q)) 1))
  refine congrArg (V c main_arg4) (funext fun a => Fin.ext ?_)
  match a with
  | ⟨0, _⟩ => show win1_2.index t (0 : Fin 1) * 64 + 1 * q.val = win1_5.index t (1 : Fin 2) * 64 + 1 * q.val; omega

/-- the mean vector, -/
theorem mean_read (c : Dev nD) (t : Fin cfg1.N) (p : Fin 4000) (q : Fin 64) :
    iblk1 (F := Ideal) V c 3 t (ix1 q) = V c main_arg5 (ix1 ((((cfg1.win 5).blk t).view.emb (ix2 p q)) 1)) := by
  obtain ⟨-, -, -, e3, -, -, e6, -⟩ := index_facts1 t
  show V c main_arg5 (((cfg1.win 3).blk t).view.emb (ix1 q)) = V c main_arg5 (ix1 ((((cfg1.win 5).blk t).view.emb (ix2 p q)) 1))
  refine congrArg (V c main_arg5) (funext fun a => Fin.ext ?_)
  match a with
  | ⟨0, _⟩ => show win1_3.index t (0 : Fin 1) * 64 + 1 * q.val = win1_5.index t (1 : Fin 2) * 64 + 1 * q.val; omega

/-- and the variance vector. -/
theorem var_read (c : Dev nD) (t : Fin cfg1.N) (p : Fin 4000) (q : Fin 64) :
    iblk1 (F := Ideal) V c 4 t (ix1 q) = V c main_arg6 (ix1 ((((cfg1.win 5).blk t).view.emb (ix2 p q)) 1)) := by
  obtain ⟨-, -, -, e3, -, -, -, e7⟩ := index_facts1 t
  show V c main_arg6 (((cfg1.win 4).blk t).view.emb (ix1 q)) = V c main_arg6 (ix1 ((((cfg1.win 5).blk t).view.emb (ix2 p q)) 1))
  refine congrArg (V c main_arg6) (funext fun a => Fin.ext ?_)
  match a with
  | ⟨0, _⟩ => show win1_4.index t (0 : Fin 1) * 64 + 1 * q.val = win1_5.index t (1 : Fin 2) * 64 + 1 * q.val; omega

/-- What grid point t writes back is block t of the whole-array function of the arrays as the region finds them. -/
theorem flushed1_eq (c : Dev nD) (t : Fin cfg1.N) :
    (dat1 (F := Ideal) V c).flushed 5 t = ((cfg1.win 5).blk t).view.read (Elt Ideal)
      (Cert.Gcn.bnRelu (V c main_v46) (V c main_arg3) (V c main_arg4) (V c main_arg5) (V c main_arg6)) := by
  show (cfg1.win 5).cut (grid1.coords t) ((dat1 V c).after 5 t) = _
  rw [after1_5]
  unfold out1_5
  rw [View.canon_unit_zero zero2]
  simp only [View.ld_unit_zero (S := S4000x64) zero2, View.ld_unit_zero (S := S64) zero1]
  refine funext fun (j : S4000x64.Idx) => ?_
  obtain ⟨p, q, rfl⟩ : ∃ (p : Fin 4000) (q : Fin 64), j = ix2 p q := ⟨j 0, j 1, eq_ix2 j⟩
  exact pay1_entry (iblk1 (F := Ideal) V c 0 t) (iblk1 (F := Ideal) V c 1 t) (iblk1 (F := Ideal) V c 2 t)
    (iblk1 (F := Ideal) V c 3 t) (iblk1 (F := Ideal) V c 4 t)
    (V c main_v46) (V c main_arg3) (V c main_arg4) (V c main_arg5) (V c main_arg6) p q
    (((cfg1.win 5).blk t).view.emb (ix2 p q))
    (rows_read V c t p q) (scale_read V c t p q) (shift_read V c t p q) (mean_read V c t p q) (var_read V c t p q)

/-- An index of the output array lies in point t's block iff each coordinate lies in the block's range on its axis. -/
theorem mem_rows1 (t : Fin cfg1.N) (i : S100000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v47).slice (win1_5.rect t)).set ↔ _
  rw [View.set_slice_whole, Rect.mem_set_unit]
  exact Iff.rfl

/-- Every row r of the output array is written back by the point r / 4000. -/
theorem rows_cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 25 := N_1
  have ht : (i 0).val / 4000 < cfg1.N := by rw [hN]; omega
  obtain ⟨-, -, e2, e3, -⟩ := index_facts1 ⟨(i 0).val / 4000, ht⟩
  refine ⟨⟨(i 0).val / 4000, ht⟩, flush1_5 _, ?_⟩
  rw [mem_rows1]
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    rw [e2]
    show (i 0).val / 4000 * 4000 ≤ (i 0).val ∧ (i 0).val < (i 0).val / 4000 * 4000 + 4000
    omega
  | ⟨1, _⟩ =>
    show win1_5.index ⟨(i 0).val / 4000, ht⟩ (1 : Fin 2) * 64 ≤ (i 1).val
      ∧ (i 1).val < win1_5.index ⟨(i 0).val / 4000, ht⟩ (1 : Fin 2) * 64 + 64
    rw [e3]
    omega

end Norm1

/-- After the region the output array is the normalisation-and-rectifier function of the arrays at region entry. -/
theorem final1 (c : Dev nD) : (dat1 (F := Ideal) V c).arrAt 5 cfg1.N
    = Cert.Gcn.bnRelu (V c main_v46) (V c main_arg3) (V c main_arg4) (V c main_arg5) (V c main_arg6) := by
  exact (dat1 (F := Ideal) V c).arrAt_eq_of_cover 5 _ (fun t _ => Norm1.flushed1_eq V c t) Norm1.rows_cover1

end Cert.KernelIdeal.RegionValue

end
-- ==== Proof.Reg2.lean ====
/-
  Region 2, the second layer's dense product, read as one whole-array function.

  The region walks the 100000 rows of X in 25 blocks of 4000 rows, W staying whole.  At block t the body
  multiplies rows [4000 t, 4000 t + 4000) of X by W: entry (p, q) of what it stores is
  Σ_k X[4000 t + p, k] · W[k, q] over the 64 contracted features (recasting X's block to its own shape and
  narrowing an operand are the identity on extended reals, and the accumulator starts at the zero word,
  which adds nothing).  That is entry (4000 t + p, q) of `dense2 X W`.  Row r lies in block r / 4000, so
  the 25 blocks cover the array, and the array the region leaves is `dense2 X W`.
-/
import proofs.«409920_j60619168416467_1_alg».proof.Proof.Gen.KernelIdeal.Frame
import proofs.«409920_j60619168416467_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The two zero offsets of a whole-block access, as a constant function. -/
theorem zeroOffsets2 : (![0, 0] : Fin 2 → Nat) = fun _ => 0 := funext fun a => by fin_cases a <;> rfl

/-! ## The product at an entry -/

/-- The left operand is read at the output's row … -/
theorem lhsRow2 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- … and the contracted feature; -/
theorem lhsCol2 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
/-- the right operand at the contracted feature … -/
theorem rhsRow2 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
/-- … and the output's column. -/
theorem rhsCol2 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- What the body stores, at entry (p, q) of the block: Σ_k x0[p,k] · x1[k,q]. -/
theorem product2_apply (x0 : Vec Ideal S4000x64 .f32) (x1 : Vec Ideal S64x64 .f32) (p : Fin 4000) (q : Fin 64) :
    k2_pay1 (F := Ideal) x0 x1 (ix2 p q) = ∑ k : Fin 64, x0 (ix2 p k) * x1 (ix2 k q) := by
  unfold k2_pay1
  show FloatOps.matmul dot_S4000x64_S64x64_S4000x64_1_0_0_1_n_n none (truncf .bf16 (shapeCast S4000x64 x0 shapeCasts_S4000x64_S4000x64) bitsLt_bf16_f32) (truncf .bf16 x1 bitsLt_bf16_f32)
    (constant (F := Ideal) S4000x64 .f32 0x00000000#32) (ix2 p q) = _
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun a => Fin.ext (by
    match a with
    | ⟨0, _⟩ => exact lhsRow2 _ _
    | ⟨1, _⟩ => exact (lhsCol2 _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun a => Fin.ext (by
    match a with
    | ⟨0, _⟩ => exact (rhsRow2 _ _).trans hk
    | ⟨1, _⟩ => exact rhsCol2 _ _)
  rw [truncf_apply, truncf_apply, shapeCast_self, el, er]

/-! ## The blocks -/

/-- The block index maps over the 25 blocks: X's block and the output's block move down with the block
    number, W's block stays at the origin. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- X's block at block t is rows 4000 t … 4000 t + 3999 of X. -/
theorem lhsBlock2_apply (c : Dev nD) (t : Fin cfg2.N) (x : S4000x64.Idx) (i : S100000x64.Idx)
    (h0 : (i 0).val = 4000 * t.val + (x 0).val) (h1 : (i 1).val = (x 1).val) :
    (iblk2 V c 0 t : Vec Ideal S4000x64 .f32) x = (V c main_v47 : S100000x64.Idx → EReal) i := by
  obtain ⟨e0, e1, -, -, -, -⟩ := blockIndex2 t
  show V c main_v47 (((cfg2.win 0).blk t).view.emb x) = V c main_v47 i
  congr 1
  funext a
  apply Fin.ext
  match a with
  | ⟨0, _⟩ => show win2_0.index t (0 : Fin 2) * 4000 + 1 * (x 0).val = (i 0).val; rw [e0, h0]; omega
  | ⟨1, _⟩ => show win2_0.index t (1 : Fin 2) * 64 + 1 * (x 1).val = (i 1).val; rw [e1, h1]; omega

/-- W's block at every block is W. -/
theorem rhsBlock2_apply (c : Dev nD) (t : Fin cfg2.N) (x : S64x64.Idx) :
    (iblk2 V c 1 t : Vec Ideal S64x64 .f32) x = (V c main_arg7 : S64x64.Idx → EReal) x := by
  obtain ⟨-, -, e2, e3, -, -⟩ := blockIndex2 t
  show V c main_arg7 (((cfg2.win 1).blk t).view.emb x) = V c main_arg7 x
  congr 1
  funext a
  apply Fin.ext
  match a with
  | ⟨0, _⟩ => show win2_1.index t (0 : Fin 2) * 64 + 1 * (x 0).val = (x 0).val; rw [e2]; omega
  | ⟨1, _⟩ => show win2_1.index t (1 : Fin 2) * 64 + 1 * (x 1).val = (x 1).val; rw [e3]; omega

/-- WHAT BLOCK t WRITES BACK is block t of the product of the whole arrays. -/
theorem flushed2_eq (c : Dev nD) (t : Fin cfg2.N) :
    (dat2 (F := Ideal) V c).flushed 2 t
      = ((cfg2.win 2).blk t).view.read (Elt Ideal) (Cert.Gcn.dense2 (V c main_v47) (V c main_arg7)) := by
  show (cfg2.win 2).cut (grid2.coords t) ((dat2 (F := Ideal) V c).after 2 t) = _
  rw [after2_2]
  unfold out2_2
  rw [View.canon_unit_zero zeroOffsets2]
  simp only [View.ld_unit_zero (S := S4000x64) zeroOffsets2, View.ld_unit_zero (S := S64x64) zeroOffsets2]
  obtain ⟨-, -, -, -, e4, e5⟩ := blockIndex2 t
  funext j
  show k2_pay1 (F := Ideal) (iblk2 V c 0 t) (iblk2 V c 1 t) j
    = Cert.Gcn.dense2 (V c main_v47) (V c main_arg7) (((cfg2.win 2).blk t).view.emb j)
  obtain ⟨p, q, rfl⟩ : ∃ (p : Fin 4000) (q : Fin 64), j = ix2 p q := ⟨j 0, j 1, eq_ix2 j⟩
  refine (product2_apply (iblk2 V c 0 t) (iblk2 V c 1 t) p q).trans ?_
  unfold Cert.Gcn.dense2
  refine Finset.sum_congr rfl fun k _ => ?_
  have hr : ((((cfg2.win 2).blk t).view.emb (ix2 p q)) 0).val = 4000 * t.val + p.val := by
    show win2_2.index t (0 : Fin 2) * 4000 + 1 * p.val = _; rw [e4]; omega
  have hc : ((((cfg2.win 2).blk t).view.emb (ix2 p q)) 1).val = q.val := by
    show win2_2.index t (1 : Fin 2) * 64 + 1 * q.val = _; rw [e5]; omega
  rw [lhsBlock2_apply V c t (ix2 p k) (ix2 ((((cfg2.win 2).blk t).view.emb (ix2 p q)) 0) k) hr rfl,
    rhsBlock2_apply V c t (ix2 k q)]
  congr 2
  funext a
  apply Fin.ext
  match a with
  | ⟨0, _⟩ => rfl
  | ⟨1, _⟩ => exact hc.symm

/-! ## From the blocks to the array -/

/-- A row and column lie in block t iff each coordinate is in the block's range on its axis. -/
theorem mem_block2 (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v48).slice (win2_2.rect t)).set ↔ _
  rw [View.set_slice_whole, Rect.mem_set_unit]
  exact Iff.rfl

/-- Row r lies in block r / 4000: the 25 blocks cover the array. -/
theorem covered2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 25 := N_2
  have ht : (i 0).val / 4000 < cfg2.N := by rw [hN]; omega
  obtain ⟨-, -, -, -, e4, e5⟩ := blockIndex2 ⟨(i 0).val / 4000, ht⟩
  refine ⟨⟨(i 0).val / 4000, ht⟩, flush2_2 _, ?_⟩
  rw [mem_block2]
  intro a
  match a with
  | ⟨0, _⟩ =>
    show win2_2.index ⟨(i 0).val / 4000, ht⟩ (0 : Fin 2) * 4000 ≤ (i 0).val ∧ (i 0).val < win2_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win2_2.index ⟨(i 0).val / 4000, ht⟩ (1 : Fin 2) * 64 ≤ (i 1).val ∧ (i 1).val < win2_2.index ⟨(i 0).val / 4000, ht⟩ (1 : Fin 2) * 64 + 64
    rw [e5]; omega

/-- THE ARRAY the region leaves is the product of the whole arrays. -/
theorem final2 (c : Dev nD) : (dat2 (F := Ideal) V c).arrAt 2 cfg2.N = Cert.Gcn.dense2 (V c main_v47) (V c main_arg7) :=
  (dat2 (F := Ideal) V c).arrAt_eq_of_cover 2 (Cert.Gcn.dense2 (V c main_v47) (V c main_arg7))
    (fun t _ => flushed2_eq V c t) covered2

end Cert.KernelIdeal.RegionValue

end
-- ==== Proof.Reg3.lean ====
/- Region 3 (the second normalisation and rectifier), read as a value.
   The body stores, at entry (p, q) of its 4000-row block, max ((x[p,q] − μ[q]) · rsqrt(σ²[q] + ε) · γ[q] + β[q], 0):
   the four per-column vectors are laid along every row (a vector seen as a 1×64 row, repeated 4000 times), so the
   entry reads each of them at column q only. The input block at grid point t is rows 4000·t … 4000·t + 3999 of the
   input array, exactly the rows of the output block at t, and each vector's one block is the whole vector; hence what
   point t writes back is block t of the whole-array function `Cert.Gcn.bnRelu` of the arrays at region entry. The 25
   blocks cover all 100000 rows (row r is in block r / 4000), so the output array ends holding that function. -/
import proofs.«409920_j60619168416467_1_alg».proof.Proof.Gen.KernelIdeal.Frame
import proofs.«409920_j60619168416467_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace Norm3

/-- A row vector laid along the columns of every row: entry (p, q) of the broadcast is entry q of the vector. -/
theorem rowBcast_apply {α : Type} (v : S64.Idx → α) (h1 : S64.ShapeCasts S1x64) (h2 : S1x64.Broadcasts S4000x64)
    (p : Fin 4000) (q : Fin 64) :
    broadcastTo S4000x64 (shapeCast S1x64 v h1) h2 (ix2 p q) = v (ix1 q) := by
  rw [broadcastTo_apply _ h2 (ix2 p q) (ix2 (0 : Fin 1) q) (by
    intro a
    match a with
    | ⟨0, _⟩ => rfl
    | ⟨1, _⟩ => rfl)]
  exact (shapeCast_addUnit_apply ![64] v h1 (ix2 (0 : Fin 1) q)).trans
    (congrArg v (funext fun a => by match a with | ⟨0, _⟩ => rfl))

/-- The body's stored value at entry (p, q): the normalised, scaled and shifted entry, cut below at the zero word. -/
theorem pay3_apply (x0 : Vec Ideal S4000x64 .f32) (x1 x2 x3 x4 : Vec Ideal S64 .f32) (p : Fin 4000) (q : Fin 64) :
    k3_pay1 (F := Ideal) x0 x1 x2 x3 x4 (ix2 p q)
      = max ((x0 (ix2 p q) - x3 (ix1 q)) * Ideal.rsqrt (x4 (ix1 q) + Cert.Gcn.eps) * x1 (ix1 q) + x2 (ix1 q))
          (Ideal.ofBits .f32 0x00000000#32) := by
  unfold k3_pay1
  rw [maximumf_apply, addf_apply, mulf_apply, mulf_apply, subf_apply, broadcast_apply,
    rowBcast_apply, rowBcast_apply, rowBcast_apply, rowBcast_apply, shapeCast_self]
  rfl

/-- One entry of the block against one entry of the whole-array function: if the five values the body reads at
    (p, q) are the array entries the function reads at i, the stored value is the function's entry at i. -/
theorem pay3_entry (x0 : Vec Ideal S4000x64 .f32) (x1 x2 x3 x4 : Vec Ideal S64 .f32)
    (X : Cert.Gcn.SNxH.Idx → EReal) (g bt rm rv : Cert.Gcn.SH.Idx → EReal)
    (p : Fin 4000) (q : Fin 64) (i : Cert.Gcn.SNxH.Idx)
    (h0 : x0 (ix2 p q) = X i) (h1 : x1 (ix1 q) = g (ix1 (i 1))) (h2 : x2 (ix1 q) = bt (ix1 (i 1)))
    (h3 : x3 (ix1 q) = rm (ix1 (i 1))) (h4 : x4 (ix1 q) = rv (ix1 (i 1))) :
    k3_pay1 (F := Ideal) x0 x1 x2 x3 x4 (ix2 p q) = Cert.Gcn.bnRelu X g bt rm rv i := by
  rw [pay3_apply, h0, h1, h2, h3, h4]
  rfl

theorem zero2 : (![0, 0] : Fin 2 → Nat) = fun _ => 0 := funext fun a => by fin_cases a <;> rfl
theorem zero1 : (![0] : Fin 1 → Nat) = fun _ => 0 := funext fun a => by fin_cases a <;> rfl

/-- The windows' index maps over the 25 grid points: the input rows and the output rows sit at block t, column block 0;
    each of the four per-column vectors is always its one block. -/
theorem index_facts3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 1) = 0 ∧ win3_2.index t (0 : Fin 1) = 0
    ∧ win3_3.index t (0 : Fin 1) = 0 ∧ win3_4.index t (0 : Fin 1) = 0 :=
  (by decide +kernel : ∀ t : Fin grid3.N, _)

/-- The input block at point t is the rows of the input array under the output block at t. -/
theorem rows_read (c : Dev nD) (t : Fin cfg3.N) (p : Fin 4000) (q : Fin 64) :
    iblk3 (F := Ideal) V c 0 t (ix2 p q) = V c main_v64 (((cfg3.win 5).blk t).view.emb (ix2 p q)) := by
  obtain ⟨e0, e1, e2, e3, -⟩ := index_facts3 t
  show V c main_v64 (((cfg3.win 0).blk t).view.emb (ix2 p q)) = V c main_v64 (((cfg3.win 5).blk t).view.emb (ix2 p q))
  refine congrArg (V c main_v64) (funext fun a => Fin.ext ?_)
  match a with
  | ⟨0, _⟩ => show win3_0.index t (0 : Fin 2) * 4000 + 1 * p.val = win3_5.index t (0 : Fin 2) * 4000 + 1 * p.val; omega
  | ⟨1, _⟩ => show win3_0.index t (1 : Fin 2) * 64 + 1 * q.val = win3_5.index t (1 : Fin 2) * 64 + 1 * q.val; omega

/-- The scale vector's one block is the whole vector: its entry q is the array's entry at the column of the output index. -/
theorem scale_read (c : Dev nD) (t : Fin cfg3.N) (p : Fin 4000) (q : Fin 64) :
    iblk3 (F := Ideal) V c 1 t (ix1 q) = V c main_arg9 (ix1 ((((cfg3.win 5).blk t).view.emb (ix2 p q)) 1)) := by
  obtain ⟨-, -, -, e3, e4, -⟩ := index_facts3 t
  show V c main_arg9 (((cfg3.win 1).blk t).view.emb (ix1 q)) = V c main_arg9 (ix1 ((((cfg3.win 5).blk t).view.emb (ix2 p q)) 1))
  refine congrArg (V c main_arg9) (funext fun a => Fin.ext ?_)
  match a with
  | ⟨0, _⟩ => show win3_1.index t (0 : Fin 1) * 64 + 1 * q.val = win3_5.index t (1 : Fin 2) * 64 + 1 * q.val; omega

/-- The same for the shift vector, -/
theorem shift_read (c : Dev nD) (t : Fin cfg3.N) (p : Fin 4000) (q : Fin 64) :
    iblk3 (F := Ideal) V c 2 t (ix1 q) = V c main_arg10 (ix1 ((((cfg3.win 5).blk t).view.emb (ix2 p q)) 1)) := by
  obtain ⟨-, -, -, e3, -, e5, -⟩ := index_facts3 t
  show V c main_arg10 (((cfg3.win 2).blk t).view.emb (ix1 q)) = V c main_arg10 (ix1 ((((cfg3.win 5).blk t).view.emb (ix2 p q)) 1))
  refine congrArg (V c main_arg10) (funext fun a => Fin.ext ?_)
  match a with
  | ⟨0, _⟩ => show win3_2.index t (0 : Fin 1) * 64 + 1 * q.val = win3_5.index t (1 : Fin 2) * 64 + 1 * q.val; omega

/-- the mean vector, -/
theorem mean_read (c : Dev nD) (t : Fin cfg3.N) (p : Fin 4000) (q : Fin 64) :
    iblk3 (F := Ideal) V c 3 t (ix1 q) = V c main_arg11 (ix1 ((((cfg3.win 5).blk t).view.emb (ix2 p q)) 1)) := by
  obtain ⟨-, -, -, e3, -, -, e6, -⟩ := index_facts3 t
  show V c main_arg11 (((cfg3.win 3).blk t).view.emb (ix1 q)) = V c main_arg11 (ix1 ((((cfg3.win 5).blk t).view.emb (ix2 p q)) 1))
  refine congrArg (V c main_arg11) (funext fun a => Fin.ext ?_)
  match a with
  | ⟨0, _⟩ => show win3_3.index t (0 : Fin 1) * 64 + 1 * q.val = win3_5.index t (1 : Fin 2) * 64 + 1 * q.val; omega

/-- and the variance vector. -/
theorem var_read (c : Dev nD) (t : Fin cfg3.N) (p : Fin 4000) (q : Fin 64) :
    iblk3 (F := Ideal) V c 4 t (ix1 q) = V c main_arg12 (ix1 ((((cfg3.win 5).blk t).view.emb (ix2 p q)) 1)) := by
  obtain ⟨-, -, -, e3, -, -, -, e7⟩ := index_facts3 t
  show V c main_arg12 (((cfg3.win 4).blk t).view.emb (ix1 q)) = V c main_arg12 (ix1 ((((cfg3.win 5).blk t).view.emb (ix2 p q)) 1))
  refine congrArg (V c main_arg12) (funext fun a => Fin.ext ?_)
  match a with
  | ⟨0, _⟩ => show win3_4.index t (0 : Fin 1) * 64 + 1 * q.val = win3_5.index t (1 : Fin 2) * 64 + 1 * q.val; omega

/-- What grid point t writes back is block t of the whole-array function of the arrays as the region finds them. -/
theorem flushed3_eq (c : Dev nD) (t : Fin cfg3.N) :
    (dat3 (F := Ideal) V c).flushed 5 t = ((cfg3.win 5).blk t).view.read (Elt Ideal)
      (Cert.Gcn.bnRelu (V c main_v64) (V c main_arg9) (V c main_arg10) (V c main_arg11) (V c main_arg12)) := by
  show (cfg3.win 5).cut (grid3.coords t) ((dat3 V c).after 5 t) = _
  rw [after3_5]
  unfold out3_5
  rw [View.canon_unit_zero zero2]
  simp only [View.ld_unit_zero (S := S4000x64) zero2, View.ld_unit_zero (S := S64) zero1]
  refine funext fun (j : S4000x64.Idx) => ?_
  obtain ⟨p, q, rfl⟩ : ∃ (p : Fin 4000) (q : Fin 64), j = ix2 p q := ⟨j 0, j 1, eq_ix2 j⟩
  exact pay3_entry (iblk3 (F := Ideal) V c 0 t) (iblk3 (F := Ideal) V c 1 t) (iblk3 (F := Ideal) V c 2 t)
    (iblk3 (F := Ideal) V c 3 t) (iblk3 (F := Ideal) V c 4 t)
    (V c main_v64) (V c main_arg9) (V c main_arg10) (V c main_arg11) (V c main_arg12) p q
    (((cfg3.win 5).blk t).view.emb (ix2 p q))
    (rows_read V c t p q) (scale_read V c t p q) (shift_read V c t p q) (mean_read V c t p q) (var_read V c t p q)

/-- An index of the output array lies in point t's block iff each coordinate lies in the block's range on its axis. -/
theorem mem_rows3 (t : Fin cfg3.N) (i : S100000x64.Idx) :
    i ∈ ((cfg3.win 5).blk t).view.set ↔ ∀ a : Fin 2, win3_5.index t a * S4000x64.size a ≤ (i a).val
      ∧ (i a).val < win3_5.index t a * S4000x64.size a + S4000x64.size a := by
  show i ∈ ((View.whole main_v65).slice (win3_5.rect t)).set ↔ _
  rw [View.set_slice_whole, Rect.mem_set_unit]
  exact Iff.rfl

/-- Every row r of the output array is written back by the point r / 4000. -/
theorem rows_cover3 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 25 := N_3
  have ht : (i 0).val / 4000 < cfg3.N := by rw [hN]; omega
  obtain ⟨-, -, e2, e3, -⟩ := index_facts3 ⟨(i 0).val / 4000, ht⟩
  refine ⟨⟨(i 0).val / 4000, ht⟩, flush3_5 _, ?_⟩
  rw [mem_rows3]
  intro a
  match a with
  | ⟨0, _⟩ =>
    show win3_5.index ⟨(i 0).val / 4000, ht⟩ (0 : Fin 2) * 4000 ≤ (i 0).val
      ∧ (i 0).val < win3_5.index ⟨(i 0).val / 4000, ht⟩ (0 : Fin 2) * 4000 + 4000
    rw [e2]
    show (i 0).val / 4000 * 4000 ≤ (i 0).val ∧ (i 0).val < (i 0).val / 4000 * 4000 + 4000
    omega
  | ⟨1, _⟩ =>
    show win3_5.index ⟨(i 0).val / 4000, ht⟩ (1 : Fin 2) * 64 ≤ (i 1).val
      ∧ (i 1).val < win3_5.index ⟨(i 0).val / 4000, ht⟩ (1 : Fin 2) * 64 + 64
    rw [e3]
    omega

end Norm3

/-- After the region the output array is the normalisation-and-rectifier function of the arrays at region entry. -/
theorem final3 (c : Dev nD) : (dat3 (F := Ideal) V c).arrAt 5 cfg3.N
    = Cert.Gcn.bnRelu (V c main_v64) (V c main_arg9) (V c main_arg10) (V c main_arg11) (V c main_arg12) := by
  exact (dat3 (F := Ideal) V c).arrAt_eq_of_cover 5 _ (fun t _ => Norm3.flushed3_eq V c t) Norm3.rows_cover3

end Cert.KernelIdeal.RegionValue

end
-- ==== Proof.KStage1.lean ====
/-
  The first two layers of the network, read off the run stage by stage.

  Each of the four device regions of the two convolution layers leaves in its result array the
  specification's function of what its operand arrays held when the region was entered: the dense
  products Σ_k X[r,k] · W[k,j] and the normalisations max ((X[r,j] − μ[j]) · rsqrt(σ²[j] + ε) · γ[j] + β[j], 0).
  A weight, scale, shift or statistics array is written by no host operation and by no region (a region
  only reads it, through an input window), so its contents at a region's entry are the launch contents;
  the feature operand is whatever the preceding stretch of the run left.
-/
import proofs.«409920_j60619168416467_1_alg».proof.Proof.Gen.KernelIdeal.Frame
import proofs.«409920_j60619168416467_1_alg».proof.Proof.Spec
import proofs.«409920_j60619168416467_1_alg».proof.Proof.Chains
import proofs.«409920_j60619168416467_1_alg».proof.Proof.Reg0
import proofs.«409920_j60619168416467_1_alg».proof.Proof.Reg1
import proofs.«409920_j60619168416467_1_alg».proof.Proof.Reg2
import proofs.«409920_j60619168416467_1_alg».proof.Proof.Reg3
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Stage

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-- A stretch of host operations keeps the contents of a buffer none of its operations writes: every
    operation's result reference is a different reference. -/
local macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The operand arrays no part of the run writes

Region 0 is entered after three stretches of host operations (the graph's preparation); none of them
writes an argument array. -/

/-- At region 0's entry the node features are as launched. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl

/-- At region 0's entry the first layer's weights are as launched. -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by host_keeps hostOps0_2
    _ = W1 m ρ c (Proc.devRef .tc main_arg1) := by host_keeps hostOps0_1
    _ = W0 m ρ c (Proc.devRef .tc main_arg1) := by host_keeps hostOps0
    _ = m ((c : Thread nD τ).loc main_arg1) := rfl

/-- At region 0's entry the first normalisation's scale are as launched. -/
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl

/-- At region 0's entry the first normalisation's shift are as launched. -/
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl

/-- At region 0's entry the first normalisation's running mean are as launched. -/
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl

/-- At region 0's entry the first normalisation's running variance are as launched. -/
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = m ((c : Thread nD τ).loc main_arg6) := rfl

/-- At region 0's entry the second layer's weights are as launched. -/
theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = m ((c : Thread nD τ).loc main_arg7) := rfl

/-- At region 0's entry the second normalisation's scale are as launched. -/
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := by host_keeps hostOps0_2
    _ = W1 m ρ c (Proc.devRef .tc main_arg9) := by host_keeps hostOps0_1
    _ = W0 m ρ c (Proc.devRef .tc main_arg9) := by host_keeps hostOps0
    _ = m ((c : Thread nD τ).loc main_arg9) := rfl

/-- At region 0's entry the second normalisation's shift are as launched. -/
theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := by host_keeps hostOps0_2
    _ = W1 m ρ c (Proc.devRef .tc main_arg10) := by host_keeps hostOps0_1
    _ = W0 m ρ c (Proc.devRef .tc main_arg10) := by host_keeps hostOps0
    _ = m ((c : Thread nD τ).loc main_arg10) := rfl

/-- At region 0's entry the second normalisation's running mean are as launched. -/
theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := by host_keeps hostOps0_2
    _ = W1 m ρ c (Proc.devRef .tc main_arg11) := by host_keeps hostOps0_1
    _ = W0 m ρ c (Proc.devRef .tc main_arg11) := by host_keeps hostOps0
    _ = m ((c : Thread nD τ).loc main_arg11) := rfl

/-- At region 0's entry the second normalisation's running variance are as launched. -/
theorem W3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := by host_keeps hostOps0_2
    _ = W1 m ρ c (Proc.devRef .tc main_arg12) := by host_keeps hostOps0_1
    _ = W0 m ρ c (Proc.devRef .tc main_arg12) := by host_keeps hostOps0
    _ = m ((c : Thread nD τ).loc main_arg12) := rfl

/-! Region 0 has none of the later operands among its window arrays, and the first neighbourhood sum (a
stretch of host operations) writes none of them. -/

/-- At region 1's entry the first normalisation's scale are as launched. -/
theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := by host_keeps hostOps1
    _ = W3 m ρ c (Proc.devRef .tc main_arg3) := W4_of_ne m ρ c main_arg3 (by decide)
    _ = m ((c : Thread nD τ).loc main_arg3) := W3_arg3 m ρ c

/-- At region 1's entry the first normalisation's shift are as launched. -/
theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by host_keeps hostOps1
    _ = W3 m ρ c (Proc.devRef .tc main_arg4) := W4_of_ne m ρ c main_arg4 (by decide)
    _ = m ((c : Thread nD τ).loc main_arg4) := W3_arg4 m ρ c

/-- At region 1's entry the first normalisation's running mean are as launched. -/
theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := by host_keeps hostOps1
    _ = W3 m ρ c (Proc.devRef .tc main_arg5) := W4_of_ne m ρ c main_arg5 (by decide)
    _ = m ((c : Thread nD τ).loc main_arg5) := W3_arg5 m ρ c

/-- At region 1's entry the first normalisation's running variance are as launched. -/
theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := by host_keeps hostOps1
    _ = W3 m ρ c (Proc.devRef .tc main_arg6) := W4_of_ne m ρ c main_arg6 (by decide)
    _ = m ((c : Thread nD τ).loc main_arg6) := W3_arg6 m ρ c

/-- At region 1's entry the second layer's weights are as launched. -/
theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := by host_keeps hostOps1
    _ = W3 m ρ c (Proc.devRef .tc main_arg7) := W4_of_ne m ρ c main_arg7 (by decide)
    _ = m ((c : Thread nD τ).loc main_arg7) := W3_arg7 m ρ c

/-- At region 1's entry the second normalisation's scale are as launched. -/
theorem W5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := by host_keeps hostOps1
    _ = W3 m ρ c (Proc.devRef .tc main_arg9) := W4_of_ne m ρ c main_arg9 (by decide)
    _ = m ((c : Thread nD τ).loc main_arg9) := W3_arg9 m ρ c

/-- At region 1's entry the second normalisation's shift are as launched. -/
theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := by host_keeps hostOps1
    _ = W3 m ρ c (Proc.devRef .tc main_arg10) := W4_of_ne m ρ c main_arg10 (by decide)
    _ = m ((c : Thread nD τ).loc main_arg10) := W3_arg10 m ρ c

/-- At region 1's entry the second normalisation's running mean are as launched. -/
theorem W5_arg11 (c : Dev nD) : W5 m ρ c (Proc.devRef .tc main_arg11) = m ((c : Thread nD τ).loc main_arg11) :=
  calc W5 m ρ c (Proc.devRef .tc main_arg11)
    _ = W4 m ρ c (Proc.devRef .tc main_arg11) := by host_keeps hostOps1
    _ = W3 m ρ c (Proc.devRef .tc main_arg11) := W4_of_ne m ρ c main_arg11 (by decide)
    _ = m ((c : Thread nD τ).loc main_arg11) := W3_arg11 m ρ c

/-- At region 1's entry the second normalisation's running variance are as launched. -/
theorem W5_arg12 (c : Dev nD) : W5 m ρ c (Proc.devRef .tc main_arg12) = m ((c : Thread nD τ).loc main_arg12) :=
  calc W5 m ρ c (Proc.devRef .tc main_arg12)
    _ = W4 m ρ c (Proc.devRef .tc main_arg12) := by host_keeps hostOps1
    _ = W3 m ρ c (Proc.devRef .tc main_arg12) := W4_of_ne m ρ c main_arg12 (by decide)
    _ = m ((c : Thread nD τ).loc main_arg12) := W3_arg12 m ρ c

/-- At region 2's entry the second layer's weights are as launched: region 1 does not have them among its
    window arrays. -/
theorem W6_arg7 (c : Dev nD) : W6 m ρ c (Proc.devRef .tc main_arg7) = m ((c : Thread nD τ).loc main_arg7) :=
  (W6_of_ne m ρ c main_arg7 (by decide)).trans (W5_arg7 m ρ c)

/-! Regions 1 and 2 have none of the second normalisation's operands among their window arrays, and the
second neighbourhood sum writes none of them. -/

/-- At region 3's entry the second normalisation's scale are as launched. -/
theorem W8_arg9 (c : Dev nD) : W8 m ρ c (Proc.devRef .tc main_arg9) = m ((c : Thread nD τ).loc main_arg9) :=
  calc W8 m ρ c (Proc.devRef .tc main_arg9)
    _ = W7 m ρ c (Proc.devRef .tc main_arg9) := by host_keeps hostOps3
    _ = W6 m ρ c (Proc.devRef .tc main_arg9) := W7_of_ne m ρ c main_arg9 (by decide)
    _ = W5 m ρ c (Proc.devRef .tc main_arg9) := W6_of_ne m ρ c main_arg9 (by decide)
    _ = m ((c : Thread nD τ).loc main_arg9) := W5_arg9 m ρ c

/-- At region 3's entry the second normalisation's shift are as launched. -/
theorem W8_arg10 (c : Dev nD) : W8 m ρ c (Proc.devRef .tc main_arg10) = m ((c : Thread nD τ).loc main_arg10) :=
  calc W8 m ρ c (Proc.devRef .tc main_arg10)
    _ = W7 m ρ c (Proc.devRef .tc main_arg10) := by host_keeps hostOps3
    _ = W6 m ρ c (Proc.devRef .tc main_arg10) := W7_of_ne m ρ c main_arg10 (by decide)
    _ = W5 m ρ c (Proc.devRef .tc main_arg10) := W6_of_ne m ρ c main_arg10 (by decide)
    _ = m ((c : Thread nD τ).loc main_arg10) := W5_arg10 m ρ c

/-- At region 3's entry the second normalisation's running mean are as launched. -/
theorem W8_arg11 (c : Dev nD) : W8 m ρ c (Proc.devRef .tc main_arg11) = m ((c : Thread nD τ).loc main_arg11) :=
  calc W8 m ρ c (Proc.devRef .tc main_arg11)
    _ = W7 m ρ c (Proc.devRef .tc main_arg11) := by host_keeps hostOps3
    _ = W6 m ρ c (Proc.devRef .tc main_arg11) := W7_of_ne m ρ c main_arg11 (by decide)
    _ = W5 m ρ c (Proc.devRef .tc main_arg11) := W6_of_ne m ρ c main_arg11 (by decide)
    _ = m ((c : Thread nD τ).loc main_arg11) := W5_arg11 m ρ c

/-- At region 3's entry the second normalisation's running variance are as launched. -/
theorem W8_arg12 (c : Dev nD) : W8 m ρ c (Proc.devRef .tc main_arg12) = m ((c : Thread nD τ).loc main_arg12) :=
  calc W8 m ρ c (Proc.devRef .tc main_arg12)
    _ = W7 m ρ c (Proc.devRef .tc main_arg12) := by host_keeps hostOps3
    _ = W6 m ρ c (Proc.devRef .tc main_arg12) := W7_of_ne m ρ c main_arg12 (by decide)
    _ = W5 m ρ c (Proc.devRef .tc main_arg12) := W6_of_ne m ρ c main_arg12 (by decide)
    _ = m ((c : Thread nD τ).loc main_arg12) := W5_arg12 m ρ c

/-! ## The four regions' result arrays -/

/-- Region 0's result array is the first dense product of the arguments. -/
theorem s0 (c : Dev nD) : (W4 m ρ c (Proc.devRef .tc main_v30)) = Cert.Gcn.dense1 (m ((c : Thread nD τ).loc main_arg0)) (m ((c : Thread nD τ).loc main_arg1)) := by
  refine ((W4_arr m ρ c 2).trans (RegionValue.final0 (V3 m ρ) c)).trans ?_
  rw [show V3 m ρ c main_arg0 = m ((c : Thread nD τ).loc main_arg0) from W3_arg0 m ρ c,
    show V3 m ρ c main_arg1 = m ((c : Thread nD τ).loc main_arg1) from W3_arg1 m ρ c]

/-- Region 1's result array is the normalised, rectified first neighbourhood sum. -/
theorem s2 (c : Dev nD) : (W6 m ρ c (Proc.devRef .tc main_v47)) = Cert.Gcn.bnRelu (W5 m ρ c (Proc.devRef .tc main_v46)) (m ((c : Thread nD τ).loc main_arg3)) (m ((c : Thread nD τ).loc main_arg4)) (m ((c : Thread nD τ).loc main_arg5)) (m ((c : Thread nD τ).loc main_arg6)) := by
  refine ((W6_arr m ρ c 5).trans (RegionValue.final1 (V5 m ρ) c)).trans ?_
  rw [show V5 m ρ c main_arg3 = m ((c : Thread nD τ).loc main_arg3) from W5_arg3 m ρ c,
    show V5 m ρ c main_arg4 = m ((c : Thread nD τ).loc main_arg4) from W5_arg4 m ρ c,
    show V5 m ρ c main_arg5 = m ((c : Thread nD τ).loc main_arg5) from W5_arg5 m ρ c,
    show V5 m ρ c main_arg6 = m ((c : Thread nD τ).loc main_arg6) from W5_arg6 m ρ c]

/-- Region 2's result array is the second dense product. -/
theorem s3 (c : Dev nD) : (W7 m ρ c (Proc.devRef .tc main_v48)) = Cert.Gcn.dense2 (W6 m ρ c (Proc.devRef .tc main_v47)) (m ((c : Thread nD τ).loc main_arg7)) := by
  refine ((W7_arr m ρ c 2).trans (RegionValue.final2 (V6 m ρ) c)).trans ?_
  rw [show V6 m ρ c main_arg7 = m ((c : Thread nD τ).loc main_arg7) from W6_arg7 m ρ c]

/-- Region 3's result array is the normalised, rectified second neighbourhood sum. -/
theorem s5 (c : Dev nD) : (W9 m ρ c (Proc.devRef .tc main_v65)) = Cert.Gcn.bnRelu (W8 m ρ c (Proc.devRef .tc main_v64)) (m ((c : Thread nD τ).loc main_arg9)) (m ((c : Thread nD τ).loc main_arg10)) (m ((c : Thread nD τ).loc main_arg11)) (m ((c : Thread nD τ).loc main_arg12)) := by
  refine ((W9_arr m ρ c 5).trans (RegionValue.final3 (V8 m ρ) c)).trans ?_
  rw [show V8 m ρ c main_arg9 = m ((c : Thread nD τ).loc main_arg9) from W8_arg9 m ρ c,
    show V8 m ρ c main_arg10 = m ((c : Thread nD τ).loc main_arg10) from W8_arg10 m ρ c,
    show V8 m ρ c main_arg11 = m ((c : Thread nD τ).loc main_arg11) from W8_arg11 m ρ c,
    show V8 m ρ c main_arg12 = m ((c : Thread nD τ).loc main_arg12) from W8_arg12 m ρ c]

end Cert.KernelIdeal.Stage

end
-- ==== Proof.KStage2.lean ====
/-
  The two neighbourhood sums of the kernel's run, read on the host. A layer's neighbourhood sum adds into row d,
  over every edge (s, d) of the self-looped graph, row s of a feature matrix weighted by the product of the
  inverse root degrees of s and d, and then a bias row. The kernel's program prepares the graph once (sources,
  targets, degrees, inverse root degrees zero where the degree is not positive, edge weights) and reuses the
  prepared buffers in both layers; the reference's composed term spells the preparation out at every use. The
  composed term is cut into its parts (`Nbr.*`), each host stretch is read as one part applied to what it found
  in the buffers, and the prepared buffers are followed unchanged through the stretches and regions between.
-/
import proofs.«409920_j60619168416467_1_alg».proof.Proof.Gen.KernelIdeal.Frame
import proofs.«409920_j60619168416467_1_alg».proof.Proof.Spec
import proofs.«409920_j60619168416467_1_alg».proof.Proof.Chains
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.ReferenceIdeal.Chain.Nbr

open Cert.ReferenceIdeal Cert.ReferenceIdeal.Gen Idealize.ShloMosaic Idealize.ShloMosaic.TcCoe

variable {F : FTy → Type} [FloatOps F]

/-- Row 0 of the edge list followed by the node numbers: the sources of the self-looped graph. -/
def src (ei : (⟨S2x3200000, .i32⟩ : BufTy).Contents (Elt F)) : (⟨S3300000, .i32⟩ : BufTy).Contents (Elt F) :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- Row 1 of the edge list followed by the node numbers: the targets of the self-looped graph. -/
def dst (ei : (⟨S2x3200000, .i32⟩ : BufTy).Contents (Elt F)) : (⟨S3300000, .i32⟩ : BufTy).Contents (Elt F) :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- A negative node number counted from the end. -/
def wrap (v : (⟨S3300000, .i32⟩ : BufTy).Contents (Elt F)) : (⟨S3300000, .i32⟩ : BufTy).Contents (Elt F) :=
  select (cmpi .slt v (broadcastInDim S3300000 ![] bcast_S_S3300000 (constantI S_ 32 0#32))) (addi v (broadcastInDim S3300000 ![] bcast_S_S3300000 (constantI S_ 32 100000#32))) v

/-- The degrees: one summed into each edge's target. -/
def deg (ei : (⟨S2x3200000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant (F := F) S_ .f32 0x00000000#32)) (broadcastInDim S3300000x1 ![0] bcast_S3300000_S3300000x1_0 (dst ei)) (broadcastInDim S3300000 ![] bcast_S_S3300000 (constant (F := F) S_ .f32 0x3F800000#32))

/-- Where the degree is positive. -/
def pos (ei : (⟨S2x3200000, .i32⟩ : BufTy).Contents (Elt F)) : (⟨S100000, .i1⟩ : BufTy).Contents (Elt F) :=
  cmpf .ogt (deg ei) (broadcastInDim S100000 ![] bcast_S_S100000 (constant (F := F) S_ .f32 0x00000000#32))

/-- The inverse roots of the degrees. -/
def rs (ei : (⟨S2x3200000, .i32⟩ : BufTy).Contents (Elt F)) : (⟨S100000, .f32⟩ : BufTy).Contents (Elt F) :=
  Host.rsqrt (deg ei)

/-- The scalar zero. -/
def zero : (⟨S_, .f32⟩ : BufTy).Contents (Elt F) := constant (F := F) S_ .f32 0x00000000#32

/-- The choice between a value and a scalar spread over the nodes. -/
def pick (p : (⟨S100000, .i1⟩ : BufTy).Contents (Elt F)) (r : (⟨S100000, .f32⟩ : BufTy).Contents (Elt F))
    (z : (⟨S_, .f32⟩ : BufTy).Contents (Elt F)) : (⟨S100000, .f32⟩ : BufTy).Contents (Elt F) :=
  select p r (broadcastInDim S100000 ![] bcast_S_S100000 (id z))

/-- An edge's weight: the product of the values a node vector has at its two ends. -/
def weight (inv : (⟨S100000, .f32⟩ : BufTy).Contents (Elt F)) (s d : (⟨S3300000, .i32⟩ : BufTy).Contents (Elt F)) :
    (⟨S3300000, .f32⟩ : BufTy).Contents (Elt F) :=
  mulf (Host.gather gather_S100000_S3300000x1_S3300000_n_0_n_n_0_1_1 inv (broadcastInDim S3300000x1 ![0] bcast_S3300000_S3300000x1_0 (wrap s))) (Host.gather gather_S100000_S3300000x1_S3300000_n_0_n_n_0_1_1 inv (broadcastInDim S3300000x1 ![0] bcast_S3300000_S3300000x1_0 (wrap d)))

/-- The weighted rows of `h` summed into their edges' targets, plus the bias row. -/
def sum (s d : (⟨S3300000, .i32⟩ : BufTy).Contents (Elt F)) (w : (⟨S3300000, .f32⟩ : BufTy).Contents (Elt F))
    (h : (⟨S100000x64, .f32⟩ : BufTy).Contents (Elt F)) (b : (⟨S64, .f32⟩ : BufTy).Contents (Elt F)) : (⟨S100000x64, .f32⟩ : BufTy).Contents (Elt F) :=
  addf (Host.scatterAdd scatter_S100000x64_S3300000x1_S3300000x64_1_0_0_1 (broadcastInDim S100000x64 ![] bcast_S_S100000x64 (constant (F := F) S_ .f32 0x00000000#32)) (broadcastInDim S3300000x1 ![0] bcast_S3300000_S3300000x1_0 d) (mulf (Host.gather gather_S100000x64_S3300000x1_S3300000x64_1_0_n_n_0_1_164 h (broadcastInDim S3300000x1 ![0] bcast_S3300000_S3300000x1_0 (wrap s))) (broadcastInDim S3300000x64 ![0, 1] bcast_S3300000x1_S3300000x64_0_1 (broadcastInDim S3300000x1 ![0] bcast_S3300000_S3300000x1_0 w)))) (broadcastInDim S100000x64 ![0, 1] bcast_S1x64_S100000x64_0_1 (broadcastInDim S1x64 ![1] bcast_S64_S1x64_1 b))

/-- The layer's neighbourhood sum is the weighted sum over the prepared graph: the composed term read by its parts. -/
theorem aggregate_eq (ei : (⟨S2x3200000, .i32⟩ : BufTy).Contents (Elt F)) (h : (⟨S100000x64, .f32⟩ : BufTy).Contents (Elt F))
    (b : (⟨S64, .f32⟩ : BufTy).Contents (Elt F)) :
    aggregate ei h b = sum (src ei) (dst ei) (weight (pick (pos ei) (rs ei) zero) (src ei) (dst ei)) h b := rfl

end Cert.ReferenceIdeal.Chain.Nbr

namespace Cert.KernelIdeal.Stage

open Idealize.ShloMosaic Idealize.ShloMosaic.TcCoe Idealize.ShloMosaic.ValueIdx
open Idealize.SL.Sem
open Cert.KernelIdeal Cert.KernelIdeal.Gen

/-- A buffer that no operation of a host stretch writes holds after the stretch what it held before. -/
local macro "unwritten" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

section Stretches

variable (V : Valuation τ sig (Elt Ideal))

theorem ops0_src : StableHlo.after hostOps0 V (Proc.devRef .tc main_v5)
    = Cert.ReferenceIdeal.Chain.Nbr.src (F := Ideal) (V (Proc.devRef .tc main_arg15)) := by
  after_results; rfl

theorem ops0_dst : StableHlo.after hostOps0 V (Proc.devRef .tc main_v6)
    = Cert.ReferenceIdeal.Chain.Nbr.dst (F := Ideal) (V (Proc.devRef .tc main_arg15)) := by
  after_results; rfl

theorem ops0_pos : StableHlo.after hostOps0 V (Proc.devRef .tc main_v12)
    = Cert.ReferenceIdeal.Chain.Nbr.pos (F := Ideal) (V (Proc.devRef .tc main_arg15)) := by
  after_results; rfl

theorem ops0_rs : StableHlo.after hostOps0 V (Proc.devRef .tc main_v13)
    = Cert.ReferenceIdeal.Chain.Nbr.rs (F := Ideal) (V (Proc.devRef .tc main_arg15)) := by
  after_results; rfl

theorem ops0_zero : StableHlo.after hostOps0 V (Proc.devRef .tc main_cst_2)
    = Cert.ReferenceIdeal.Chain.Nbr.zero (F := Ideal) := by
  after_results; rfl

theorem ops0_1_pick : StableHlo.after hostOps0_1 V (Proc.devRef .tc main_v14)
    = Cert.ReferenceIdeal.Chain.Nbr.pick (F := Ideal) (V (Proc.devRef .tc main_v12)) (V (Proc.devRef .tc main_v13))
        (V (Proc.devRef .tc main_cst_2)) := by
  after_results; rfl

theorem ops0_2_weight : StableHlo.after hostOps0_2 V (Proc.devRef .tc main_v29)
    = Cert.ReferenceIdeal.Chain.Nbr.weight (F := Ideal) (V (Proc.devRef .tc main_v14)) (V (Proc.devRef .tc main_v5))
        (V (Proc.devRef .tc main_v6)) := by
  after_results_simp; rfl

theorem ops1_sum : StableHlo.after hostOps1 V (Proc.devRef .tc main_v46)
    = Cert.ReferenceIdeal.Chain.Nbr.sum (F := Ideal) (V (Proc.devRef .tc main_v5)) (V (Proc.devRef .tc main_v6))
        (V (Proc.devRef .tc main_v29)) (V (Proc.devRef .tc main_v30)) (V (Proc.devRef .tc main_arg2)) := by
  after_results_simp; rfl

theorem ops3_sum : StableHlo.after hostOps3 V (Proc.devRef .tc main_v64)
    = Cert.ReferenceIdeal.Chain.Nbr.sum (F := Ideal) (V (Proc.devRef .tc main_v5)) (V (Proc.devRef .tc main_v6))
        (V (Proc.devRef .tc main_v29)) (V (Proc.devRef .tc main_v48)) (V (Proc.devRef .tc main_arg8)) := by
  after_results_simp; rfl

theorem ops0_1_v5 : StableHlo.after hostOps0_1 V (Proc.devRef .tc main_v5) = V (Proc.devRef .tc main_v5) := by
  unwritten hostOps0_1
theorem ops0_1_v6 : StableHlo.after hostOps0_1 V (Proc.devRef .tc main_v6) = V (Proc.devRef .tc main_v6) := by
  unwritten hostOps0_1
theorem ops0_2_v5 : StableHlo.after hostOps0_2 V (Proc.devRef .tc main_v5) = V (Proc.devRef .tc main_v5) := by
  unwritten hostOps0_2
theorem ops0_2_v6 : StableHlo.after hostOps0_2 V (Proc.devRef .tc main_v6) = V (Proc.devRef .tc main_v6) := by
  unwritten hostOps0_2
theorem ops1_v5 : StableHlo.after hostOps1 V (Proc.devRef .tc main_v5) = V (Proc.devRef .tc main_v5) := by
  unwritten hostOps1
theorem ops1_v6 : StableHlo.after hostOps1 V (Proc.devRef .tc main_v6) = V (Proc.devRef .tc main_v6) := by
  unwritten hostOps1
theorem ops1_v29 : StableHlo.after hostOps1 V (Proc.devRef .tc main_v29) = V (Proc.devRef .tc main_v29) := by
  unwritten hostOps1
theorem ops0_arg2 : StableHlo.after hostOps0 V (Proc.devRef .tc main_arg2) = V (Proc.devRef .tc main_arg2) := by
  unwritten hostOps0
theorem ops0_1_arg2 : StableHlo.after hostOps0_1 V (Proc.devRef .tc main_arg2) = V (Proc.devRef .tc main_arg2) := by
  unwritten hostOps0_1
theorem ops0_2_arg2 : StableHlo.after hostOps0_2 V (Proc.devRef .tc main_arg2) = V (Proc.devRef .tc main_arg2) := by
  unwritten hostOps0_2
theorem ops0_arg8 : StableHlo.after hostOps0 V (Proc.devRef .tc main_arg8) = V (Proc.devRef .tc main_arg8) := by
  unwritten hostOps0
theorem ops0_1_arg8 : StableHlo.after hostOps0_1 V (Proc.devRef .tc main_arg8) = V (Proc.devRef .tc main_arg8) := by
  unwritten hostOps0_1
theorem ops0_2_arg8 : StableHlo.after hostOps0_2 V (Proc.devRef .tc main_arg8) = V (Proc.devRef .tc main_arg8) := by
  unwritten hostOps0_2
theorem ops1_arg8 : StableHlo.after hostOps1 V (Proc.devRef .tc main_arg8) = V (Proc.devRef .tc main_arg8) := by
  unwritten hostOps1

end Stretches

section Walk

variable (m : (ℓ : Loc nD τ sig) → Buf (Elt Ideal) ℓ) (ρ : Dev nD → PrngReg)

theorem W1_src (c : Dev nD) : W1 m ρ c (Proc.devRef .tc main_v5)
    = Cert.ReferenceIdeal.Chain.Nbr.src (F := Ideal) (m ((c : Thread nD τ).loc main_arg15)) := ops0_src (W0 m ρ c)
theorem W1_dst (c : Dev nD) : W1 m ρ c (Proc.devRef .tc main_v6)
    = Cert.ReferenceIdeal.Chain.Nbr.dst (F := Ideal) (m ((c : Thread nD τ).loc main_arg15)) := ops0_dst (W0 m ρ c)
theorem W1_pos (c : Dev nD) : W1 m ρ c (Proc.devRef .tc main_v12)
    = Cert.ReferenceIdeal.Chain.Nbr.pos (F := Ideal) (m ((c : Thread nD τ).loc main_arg15)) := ops0_pos (W0 m ρ c)
theorem W1_rs (c : Dev nD) : W1 m ρ c (Proc.devRef .tc main_v13)
    = Cert.ReferenceIdeal.Chain.Nbr.rs (F := Ideal) (m ((c : Thread nD τ).loc main_arg15)) := ops0_rs (W0 m ρ c)
theorem W1_zero (c : Dev nD) : W1 m ρ c (Proc.devRef .tc main_cst_2)
    = Cert.ReferenceIdeal.Chain.Nbr.zero (F := Ideal) := ops0_zero (W0 m ρ c)

theorem W2_src (c : Dev nD) : W2 m ρ c (Proc.devRef .tc main_v5)
    = Cert.ReferenceIdeal.Chain.Nbr.src (F := Ideal) (m ((c : Thread nD τ).loc main_arg15)) :=
  (ops0_1_v5 (W1 m ρ c)).trans (W1_src m ρ c)
theorem W2_dst (c : Dev nD) : W2 m ρ c (Proc.devRef .tc main_v6)
    = Cert.ReferenceIdeal.Chain.Nbr.dst (F := Ideal) (m ((c : Thread nD τ).loc main_arg15)) :=
  (ops0_1_v6 (W1 m ρ c)).trans (W1_dst m ρ c)
theorem W2_inv (c : Dev nD) : W2 m ρ c (Proc.devRef .tc main_v14)
    = Cert.ReferenceIdeal.Chain.Nbr.pick (F := Ideal)
        (Cert.ReferenceIdeal.Chain.Nbr.pos (F := Ideal) (m ((c : Thread nD τ).loc main_arg15)))
        (Cert.ReferenceIdeal.Chain.Nbr.rs (F := Ideal) (m ((c : Thread nD τ).loc main_arg15)))
        (Cert.ReferenceIdeal.Chain.Nbr.zero (F := Ideal)) :=
  (ops0_1_pick (W1 m ρ c)).trans (by rw [W1_pos m ρ c, W1_rs m ρ c, W1_zero m ρ c])

theorem W3_src (c : Dev nD) : W3 m ρ c (Proc.devRef .tc main_v5)
    = Cert.ReferenceIdeal.Chain.Nbr.src (F := Ideal) (m ((c : Thread nD τ).loc main_arg15)) :=
  (ops0_2_v5 (W2 m ρ c)).trans (W2_src m ρ c)
theorem W3_dst (c : Dev nD) : W3 m ρ c (Proc.devRef .tc main_v6)
    = Cert.ReferenceIdeal.Chain.Nbr.dst (F := Ideal) (m ((c : Thread nD τ).loc main_arg15)) :=
  (ops0_2_v6 (W2 m ρ c)).trans (W2_dst m ρ c)
theorem W3_norm (c : Dev nD) : W3 m ρ c (Proc.devRef .tc main_v29)
    = Cert.ReferenceIdeal.Chain.Nbr.weight (F := Ideal)
        (Cert.ReferenceIdeal.Chain.Nbr.pick (F := Ideal)
          (Cert.ReferenceIdeal.Chain.Nbr.pos (F := Ideal) (m ((c : Thread nD τ).loc main_arg15)))
          (Cert.ReferenceIdeal.Chain.Nbr.rs (F := Ideal) (m ((c : Thread nD τ).loc main_arg15)))
          (Cert.ReferenceIdeal.Chain.Nbr.zero (F := Ideal)))
        (Cert.ReferenceIdeal.Chain.Nbr.src (F := Ideal) (m ((c : Thread nD τ).loc main_arg15)))
        (Cert.ReferenceIdeal.Chain.Nbr.dst (F := Ideal) (m ((c : Thread nD τ).loc main_arg15))) :=
  (ops0_2_weight (W2 m ρ c)).trans (by rw [W2_inv m ρ c, W2_src m ρ c, W2_dst m ρ c])
theorem W3_arg2 (c : Dev nD) : W3 m ρ c (Proc.devRef .tc main_arg2) = m ((c : Thread nD τ).loc main_arg2) :=
  (ops0_2_arg2 (W2 m ρ c)).trans ((ops0_1_arg2 (W1 m ρ c)).trans (ops0_arg2 (W0 m ρ c)))
theorem W3_arg8 (c : Dev nD) : W3 m ρ c (Proc.devRef .tc main_arg8) = m ((c : Thread nD τ).loc main_arg8) :=
  (ops0_2_arg8 (W2 m ρ c)).trans ((ops0_1_arg8 (W1 m ρ c)).trans (ops0_arg8 (W0 m ρ c)))

theorem W4_src (c : Dev nD) : W4 m ρ c (Proc.devRef .tc main_v5)
    = Cert.ReferenceIdeal.Chain.Nbr.src (F := Ideal) (m ((c : Thread nD τ).loc main_arg15)) :=
  (W4_of_ne m ρ c main_v5 (by decide)).trans (W3_src m ρ c)
theorem W4_dst (c : Dev nD) : W4 m ρ c (Proc.devRef .tc main_v6)
    = Cert.ReferenceIdeal.Chain.Nbr.dst (F := Ideal) (m ((c : Thread nD τ).loc main_arg15)) :=
  (W4_of_ne m ρ c main_v6 (by decide)).trans (W3_dst m ρ c)
theorem W4_norm (c : Dev nD) : W4 m ρ c (Proc.devRef .tc main_v29) = W3 m ρ c (Proc.devRef .tc main_v29) :=
  W4_of_ne m ρ c main_v29 (by decide)
theorem W4_arg2 (c : Dev nD) : W4 m ρ c (Proc.devRef .tc main_arg2) = m ((c : Thread nD τ).loc main_arg2) :=
  (W4_of_ne m ρ c main_arg2 (by decide)).trans (W3_arg2 m ρ c)
theorem W4_arg8 (c : Dev nD) : W4 m ρ c (Proc.devRef .tc main_arg8) = m ((c : Thread nD τ).loc main_arg8) :=
  (W4_of_ne m ρ c main_arg8 (by decide)).trans (W3_arg8 m ρ c)

theorem W7_src (c : Dev nD) : W7 m ρ c (Proc.devRef .tc main_v5)
    = Cert.ReferenceIdeal.Chain.Nbr.src (F := Ideal) (m ((c : Thread nD τ).loc main_arg15)) :=
  (W7_of_ne m ρ c main_v5 (by decide)).trans ((W6_of_ne m ρ c main_v5 (by decide)).trans
    ((ops1_v5 (W4 m ρ c)).trans (W4_src m ρ c)))
theorem W7_dst (c : Dev nD) : W7 m ρ c (Proc.devRef .tc main_v6)
    = Cert.ReferenceIdeal.Chain.Nbr.dst (F := Ideal) (m ((c : Thread nD τ).loc main_arg15)) :=
  (W7_of_ne m ρ c main_v6 (by decide)).trans ((W6_of_ne m ρ c main_v6 (by decide)).trans
    ((ops1_v6 (W4 m ρ c)).trans (W4_dst m ρ c)))
theorem W7_norm (c : Dev nD) : W7 m ρ c (Proc.devRef .tc main_v29) = W3 m ρ c (Proc.devRef .tc main_v29) :=
  (W7_of_ne m ρ c main_v29 (by decide)).trans ((W6_of_ne m ρ c main_v29 (by decide)).trans
    ((ops1_v29 (W4 m ρ c)).trans (W4_norm m ρ c)))
theorem W7_arg8 (c : Dev nD) : W7 m ρ c (Proc.devRef .tc main_arg8) = m ((c : Thread nD τ).loc main_arg8) :=
  (W7_of_ne m ρ c main_arg8 (by decide)).trans ((W6_of_ne m ρ c main_arg8 (by decide)).trans
    ((ops1_arg8 (W4 m ρ c)).trans (W4_arg8 m ρ c)))

/-- The host stretch after region 0 leaves the first layer's neighbourhood sum of region 0's product. -/
theorem s1 (c : Dev nD) : (W5 m ρ c (Proc.devRef .tc main_v46))
    = Cert.ReferenceIdeal.Chain.aggregate (F := Ideal) (m ((c : Thread nD τ).loc main_arg15)) (W4 m ρ c (Proc.devRef .tc main_v30)) (m ((c : Thread nD τ).loc main_arg2)) := by
  refine (ops1_sum (W4 m ρ c)).trans ?_
  rw [W4_src m ρ c, W4_dst m ρ c, W4_norm m ρ c, W3_norm m ρ c, W4_arg2 m ρ c]
  exact (Cert.ReferenceIdeal.Chain.Nbr.aggregate_eq _ _ _).symm

/-- The host stretch after region 2 leaves the second layer's neighbourhood sum of region 2's product. -/
theorem s4 (c : Dev nD) : (W8 m ρ c (Proc.devRef .tc main_v64))
    = Cert.ReferenceIdeal.Chain.aggregate (F := Ideal) (m ((c : Thread nD τ).loc main_arg15)) (W7 m ρ c (Proc.devRef .tc main_v48)) (m ((c : Thread nD τ).loc main_arg8)) := by
  refine (ops3_sum (W7 m ρ c)).trans ?_
  rw [W7_src m ρ c, W7_dst m ρ c, W7_norm m ρ c, W3_norm m ρ c, W7_arg8 m ρ c]
  exact (Cert.ReferenceIdeal.Chain.Nbr.aggregate_eq _ _ _).symm

end Walk

end Cert.KernelIdeal.Stage

end
-- ==== Proof.Reg4.lean ====
/- Region 4, the per-graph sums, read as a value. The 100000 nodes are visited in 25 blocks of 4000 rows; at each block
   the body adds, to a 512 × 64 running array that starts at zero, the block's indicator matrix (entry (r, g) is 1 when
   node r's graph id is g, else 0), transposed, times the block's features. Entry (g, q) of one update is therefore
   Σ_r [id r = g] · X[r, q] over the block's rows; by induction on the block number the running array after block n
   holds that sum over the first 4000 (n + 1) rows, and after the last block over all rows: `Cert.Gcn.poolSum`.
   The running array is written back once, after the last block, through a block that is the whole output array. -/
import proofs.«409920_j60619168416467_1_alg».proof.Proof.Gen.KernelIdeal.Frame
import proofs.«409920_j60619168416467_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## What the body leaves in the output's buffer, in each of its two cases -/

section Pieces
variable {F : FTy → Type} [FloatOps F]

theorem pool_hz : (![0, 0] : Fin 2 → Nat) = fun _ => 0 := funext fun a => by fin_cases a <;> rfl

theorem pool_out_B (c : Dev nD) (i : grid4.Coords) (a1 : Memref sig .tc .vmem S4000x64 .f32) (h1 : a1.IsWhole)
    (a2 : Memref sig .tc .vmem S4000x1 .i32) (h2 : a2.IsWhole) (a3 : Memref sig .tc .vmem S512x64 .f32) (h3 : a3.IsWhole)
    (hc : ¬cond4_0 i) (x0 : Vec F S4000x64 .f32) (x1 : Vec F S4000x1 .i32) (xo : Vec F S512x64 .f32) :
    out4_B_2 c i a1 h1 a2 h2 a3 h3 hc x0 x1 xo = k4_pay2 x0 x1 xo := by
  unfold out4_B_2
  rw [View.read_writes_eq_canon _ _ _ (cover4_B_2 c i a1 h1 a2 h2 a3 h3 hc x0 x1 xo)]
  unfold kernelRun4_B
  dsimp only
  sl_unfold_words
  rw [View.canon_unit_zero pool_hz]
  simp only [View.readAt_eq_ld, h1.read_unread, h2.read_unread, h3.read_unread, View.ld_unit_zero (S := S4000x64) pool_hz,
    View.ld_unit_zero (S := S4000x1) pool_hz, View.ld_unit_zero (S := S512x64) pool_hz]

theorem pool_out_A (c : Dev nD) (i : grid4.Coords) (a1 : Memref sig .tc .vmem S4000x64 .f32) (h1 : a1.IsWhole)
    (a2 : Memref sig .tc .vmem S4000x1 .i32) (h2 : a2.IsWhole) (a3 : Memref sig .tc .vmem S512x64 .f32) (h3 : a3.IsWhole)
    (hc : cond4_0 i) (x0 : Vec F S4000x64 .f32) (x1 : Vec F S4000x1 .i32) :
    out4_A_2 c i a1 h1 a2 h2 a3 h3 hc x0 x1 = k4_pay2 x0 x1 k4_pay1 := by
  unfold out4_A_2
  rw [View.read_writes_eq_canon _ _ _ (cover4_A_2 c i a1 h1 a2 h2 a3 h3 hc x0 x1)]
  unfold kernelRun4_A
  dsimp only
  sl_unfold_words
  rw [View.canon_cons_unit_zero (S := S512x64) pool_hz, View.readCov_unit_zero (S := S512x64) _ pool_hz]
  simp only [View.readAt_eq_ld, h1.read_unread, h2.read_unread, View.ld_unit_zero (S := S4000x64) pool_hz,
    View.ld_unit_zero (S := S4000x1) pool_hz]

end Pieces

/-! ## One block's contribution, entry by entry -/

section Payload

theorem pool_lhs_0 (i : S512x64.Idx) (q : dot_S4000x512_S4000x64_S512x64_0_0_1_1_n_n.contr.Idx) :
    (dot_S4000x512_S4000x64_S512x64_0_0_1_1_n_n.lhsIdx i q 0).val = (q ⟨0, by decide⟩).val :=
  dot_S4000x512_S4000x64_S512x64_0_0_1_1_n_n.lhsIdx_val_of_single rfl i q
theorem pool_lhs_1 (i : S512x64.Idx) (q : dot_S4000x512_S4000x64_S512x64_0_0_1_1_n_n.contr.Idx) :
    (dot_S4000x512_S4000x64_S512x64_0_0_1_1_n_n.lhsIdx i q 1).val = (i 0).val := by
  unfold DotDims.lhsIdx
  rw [dif_neg (show ¬(1 : Fin S4000x512.rank) ∈ dot_S4000x512_S4000x64_S512x64_0_0_1_1_n_n.lhsBatch by decide), dif_pos (show (1 : Fin S4000x512.rank) ∈ dot_S4000x512_S4000x64_S512x64_0_0_1_1_n_n.lhsNonContracting by decide)]
  rfl
theorem pool_rhs_0 (i : S512x64.Idx) (q : dot_S4000x512_S4000x64_S512x64_0_0_1_1_n_n.contr.Idx) :
    (dot_S4000x512_S4000x64_S512x64_0_0_1_1_n_n.rhsIdx i q 0).val = (q ⟨0, by decide⟩).val :=
  dot_S4000x512_S4000x64_S512x64_0_0_1_1_n_n.rhsIdx_val_of_single rfl i q
theorem pool_rhs_1 (i : S512x64.Idx) (q : dot_S4000x512_S4000x64_S512x64_0_0_1_1_n_n.contr.Idx) :
    (dot_S4000x512_S4000x64_S512x64_0_0_1_1_n_n.rhsIdx i q 1).val = (i 1).val := by
  unfold DotDims.rhsIdx
  rw [dif_neg (show ¬(1 : Fin S4000x64.rank) ∈ dot_S4000x512_S4000x64_S512x64_0_0_1_1_n_n.rhsBatch by decide), dif_pos (show (1 : Fin S4000x64.rank) ∈ dot_S4000x512_S4000x64_S512x64_0_0_1_1_n_n.rhsNonContracting by decide)]
  rfl

/-- The word-level indicator: "equal" widened to 32 bits and converted is the number 1, "unequal" the number 0. -/
theorem pool_hot_word (a : BitVec 32) (g : Nat) :
    Scalar.sitofp (F := Ideal) .f32 ((IntOp.cmpi .eq a (BitVec.ofNat 32 g)).setWidth 32) = Cert.Gcn.hot a g := by
  rw [Ideal.scalar_sitofp_def]
  unfold Cert.Gcn.hot
  by_cases h : a = BitVec.ofNat 32 g
  · rw [if_pos h]
    have e : IntOp.cmpi .eq a (BitVec.ofNat 32 g) = 1#1 := by
      show BitVec.ofBool (a == BitVec.ofNat 32 g) = 1#1
      rw [beq_iff_eq.mpr h]; rfl
    rw [e]
    have e2 : ((1#1 : BitVec 1).setWidth 32).toInt = 1 := by decide
    rw [e2]; simp
  · rw [if_neg h]
    have e : IntOp.cmpi .eq a (BitVec.ofNat 32 g) = 0#1 := by
      show BitVec.ofBool (a == BitVec.ofNat 32 g) = 0#1
      rw [beq_eq_false_iff_ne.mpr h]; rfl
    rw [e]
    have e2 : ((0#1 : BitVec 1).setWidth 32).toInt = 0 := by decide
    rw [e2]; simp

/-- The indicator block at (r, g): row r's graph id compared with g. -/
theorem pool_onehot_apply (x1 : Vec Ideal S4000x1 .i32) (r : Fin 4000) (g : Fin 512) :
    (sitofp .f32 (extui 32 (cmpi .eq (broadcastTo S4000x512 x1 broadcasts_S4000x1_S4000x512)
      (iota .tc S4000x512 32 [1] iota_S4000x512_d1_w32)) natLt_1_32) : FVec Ideal S4000x512 .f32) (ix2 r g)
      = Cert.Gcn.hot (x1 (ix2 r 0)) g.val := by
  show Scalar.sitofp (F := Ideal) .f32 ((IntOp.cmpi .eq (broadcastTo S4000x512 x1 broadcasts_S4000x1_S4000x512 (ix2 r g))
      (iota .tc S4000x512 32 [1] iota_S4000x512_d1_w32 (ix2 r g))).setWidth 32) = _
  rw [broadcastTo_apply x1 broadcasts_S4000x1_S4000x512 (ix2 r g) (ix2 r 0)
      (fun a => by match a with | ⟨0, _⟩ => rfl | ⟨1, _⟩ => rfl),
    iota_single_apply]
  exact pool_hot_word _ _

/-- The body's update at entry (g, q): the running value plus the block's rows that belong to graph g. -/
theorem pool_pay2_apply (x0 : Vec Ideal S4000x64 .f32) (x1 : Vec Ideal S4000x1 .i32) (xo : Vec Ideal S512x64 .f32)
    (g : Fin 512) (q : Fin 64) :
    k4_pay2 (F := Ideal) x0 x1 xo (ix2 g q) = xo (ix2 g q) + ∑ r : Fin 4000, Cert.Gcn.hot (x1 (ix2 r 0)) g.val * x0 (ix2 r q) := by
  unfold k4_pay2
  simp only [shapeCast_self, matmul]
  rw [addf_apply, Ideal.matmul_constant_zero_apply,
    ← Equiv.sum_comp (contrEquiv1 dot_S4000x512_S4000x64_S512x64_0_0_1_1_n_n 4000 rfl rfl).symm]
  refine congrArg _ (Finset.sum_congr rfl fun k _ => ?_)
  have hk := contrEquiv1_symm_val dot_S4000x512_S4000x64_S512x64_0_0_1_1_n_n 4000 rfl rfl k
  have el : dot_S4000x512_S4000x64_S512x64_0_0_1_1_n_n.lhsIdx (ix2 g q) ((contrEquiv1 dot_S4000x512_S4000x64_S512x64_0_0_1_1_n_n 4000 rfl rfl).symm k) = ix2 k g := funext fun a => Fin.ext (by
    match a with
    | ⟨0, _⟩ => exact (pool_lhs_0 _ _).trans hk
    | ⟨1, _⟩ => exact pool_lhs_1 _ _)
  have er : dot_S4000x512_S4000x64_S512x64_0_0_1_1_n_n.rhsIdx (ix2 g q) ((contrEquiv1 dot_S4000x512_S4000x64_S512x64_0_0_1_1_n_n 4000 rfl rfl).symm k) = ix2 k q := funext fun a => Fin.ext (by
    match a with
    | ⟨0, _⟩ => exact (pool_rhs_0 _ _).trans hk
    | ⟨1, _⟩ => exact pool_rhs_1 _ _)
  rw [el, er, truncf_apply, truncf_apply]
  exact congrArg (· * _) (pool_onehot_apply x1 k g)

end Payload

/-! ## The windows' blocks read off the arrays; the running value after each point -/

section Accumulation

variable (V : (c : Dev nD) → (b : Ref sig .tc) → Buf (Elt Ideal) ((c : Thread nD τ).loc b))

/-- The node features, the graph ids, and their blocks at a point, at their literal types. -/
abbrev pool_x (c : Dev nD) : Vec Ideal S100000x64 .f32 := V c main_v65
abbrev pool_ids (c : Dev nD) : Vec Ideal S100000x1 .i32 := V c main_v66
abbrev pool_xblk (c : Dev nD) (t : Fin cfg4.N) : Vec Ideal S4000x64 .f32 := iblk4 V c 0 t
abbrev pool_idblk (c : Dev nD) (t : Fin cfg4.N) : Vec Ideal S4000x1 .i32 := iblk4 V c 1 t

/-- Both input windows sit at block row t, block column 0 — decided over the 25 points. -/
theorem pool_idx_facts : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- Row r of the feature block at point t is row 4000 t + r of the features. -/
theorem pool_xblk_apply (c : Dev nD) (t : Fin cfg4.N) (r : Fin 4000) (q : Fin 64) (h : 4000 * t.val + r.val < 100000) :
    pool_xblk V c t (ix2 r q) = pool_x V c (ix2 ⟨4000 * t.val + r.val, h⟩ q) := by
  show V c main_v65 (((cfg4.win 0).blk t).view.emb (ix2 r q)) = V c main_v65 _
  obtain ⟨e0, e1, -, -⟩ := pool_idx_facts t
  refine congrArg _ (funext fun a => Fin.ext ?_)
  match a with
  | ⟨0, _⟩ => show win4_0.index t (0 : Fin 2) * 4000 + 1 * r.val = 4000 * t.val + r.val; omega
  | ⟨1, _⟩ => show win4_0.index t (1 : Fin 2) * 64 + 1 * q.val = q.val; omega

/-- Row r of the id block at point t is row 4000 t + r of the ids. -/
theorem pool_idblk_apply (c : Dev nD) (t : Fin cfg4.N) (r : Fin 4000) (h : 4000 * t.val + r.val < 100000) :
    pool_idblk V c t (ix2 r 0) = pool_ids V c (ix2 ⟨4000 * t.val + r.val, h⟩ 0) := by
  show V c main_v66 (((cfg4.win 1).blk t).view.emb (ix2 r 0)) = V c main_v66 _
  obtain ⟨-, -, e2, e3⟩ := pool_idx_facts t
  refine congrArg _ (funext fun a => Fin.ext ?_)
  match a with
  | ⟨0, _⟩ => show win4_1.index t (0 : Fin 2) * 4000 + 1 * r.val = 4000 * t.val + r.val; omega
  | ⟨1, _⟩ => show win4_1.index t (1 : Fin 2) * 1 + 1 * 0 = 0; omega

/-- Row k's share of entry (g, q): the indicator of "row k is in graph g" times X[k, q]; nothing past the last row. -/
def pool_term (c : Dev nD) (g : Fin 512) (q : Fin 64) (k : ℕ) : EReal :=
  if h : k < 100000 then Cert.Gcn.hot (pool_ids V c (ix2 ⟨k, h⟩ 0)) g.val * pool_x V c (ix2 ⟨k, h⟩ q) else 0

/-- The block at point t contributes the shares of rows 4000 t … 4000 t + 3999. -/
theorem pool_block_sum (c : Dev nD) (t : Fin cfg4.N) (g : Fin 512) (q : Fin 64) :
    ∑ r : Fin 4000, Cert.Gcn.hot (pool_idblk V c t (ix2 r 0)) g.val * pool_xblk V c t (ix2 r q)
      = ∑ r ∈ Finset.range 4000, pool_term V c g q (4000 * t.val + r) := by
  rw [← Fin.sum_univ_eq_sum_range (fun r => pool_term V c g q (4000 * t.val + r)) 4000]
  refine Finset.sum_congr rfl fun r _ => ?_
  have hN : t.val < 25 := lt_of_lt_of_eq t.isLt N_4
  have hr : 4000 * t.val + r.val < 100000 := by have := r.isLt; omega
  unfold pool_term
  rw [dif_pos hr, pool_xblk_apply V c t r q hr, pool_idblk_apply V c t r hr]

/-- After the first point the buffer holds the update of the zero block by the first blocks. -/
theorem pool_outsAt_zero (c : Dev nD) (h : 0 < cfg4.N) :
    outsAt4 V c 0 h = k4_pay2 (pool_xblk V c ⟨0, h⟩) (pool_idblk V c ⟨0, h⟩) (k4_pay1 (F := Ideal)) :=
  (outsAt4_A V c ⟨0, h⟩ rfl).trans (pool_out_A ..)

/-- After a later point it holds the update of what the point before left. -/
theorem pool_outsAt_succ (c : Dev nD) (n : ℕ) (h : n + 1 < cfg4.N) :
    outsAt4 V c (n + 1) h = k4_pay2 (pool_xblk V c ⟨n + 1, h⟩) (pool_idblk V c ⟨n + 1, h⟩) (outsAt4 V c n (Nat.lt_of_succ_lt h)) := by
  have hN : cfg4.N = 25 := N_4
  have hB : ¬(⟨n + 1, h⟩ : Fin cfg4.N).val % 25 = 0 := by dsimp only; omega
  rw [outsAt4_B V c ⟨n + 1, h⟩ hB, pool_out_B]
  rfl

/-- THE INVARIANT: after point n, entry (g, q) is the sum of the shares of the first 4000 (n + 1) rows. -/
theorem pool_outsAt (c : Dev nD) (g : Fin 512) (q : Fin 64) : ∀ (n : ℕ) (h : n < cfg4.N),
    outsAt4 V c n h (ix2 g q) = ∑ k ∈ Finset.range (4000 * (n + 1)), pool_term V c g q k
  | 0, h => by
    rw [pool_outsAt_zero V c h, pool_pay2_apply, pool_block_sum V c ⟨0, h⟩ g q]
    show Ideal.ofBits .f32 0x00000000#32 + _ = _
    rw [Ideal.ofBits_zero_f32, zero_add]
    exact Finset.sum_congr rfl fun r _ => congrArg _ (Nat.zero_add r)
  | n + 1, h => by
    rw [pool_outsAt_succ V c n h, pool_pay2_apply, pool_outsAt c g q n, pool_block_sum V c ⟨n + 1, h⟩ g q,
      show 4000 * (n + 1 + 1) = 4000 * (n + 1) + 4000 from by ring, Finset.sum_range_add]

/-- After the last point the buffer holds the per-graph sums. -/
theorem pool_last (c : Dev nD) (h : 24 < cfg4.N) :
    outsAt4 V c 24 h = Cert.Gcn.poolSum (V c main_v65) (fun j => V c main_v66 (ix2 (j 0) 0)) := by
  funext j
  obtain ⟨g, q, rfl⟩ : ∃ (g : Fin 512) (q : Fin 64), j = ix2 g q := ⟨j 0, j 1, eq_ix2 j⟩
  rw [pool_outsAt V c g q 24 h]
  show ∑ k ∈ Finset.range 100000, pool_term V c g q k = ∑ r : Fin 100000, _
  rw [Finset.sum_range]
  refine Finset.sum_congr rfl fun r _ => ?_
  unfold pool_term
  rw [dif_pos r.isLt]

end Accumulation

/-! ## The one write-back, and the array after the region -/

section Result

variable (V : (c : Dev nD) → (b : Ref sig .tc) → Buf (Elt Ideal) ((c : Thread nD τ).loc b))

/-- The output window sits at block (0, 0) at every point: its one block is the whole array. -/
theorem pool_out_idx : ∀ t : Fin cfg4.N, win4_2.index t (0 : Fin 2) = 0 ∧ win4_2.index t (1 : Fin 2) = 0 :=
  (by decide +kernel : ∀ t : Fin grid4.N, _)

/-- Written back through the window's one block, a whole array of the output's shape is read back as itself. -/
theorem pool_cut_eq_read (t : Fin cfg4.N) (G : Vec Ideal S512x64 .f32) :
    (cfg4.win 2).cut (grid4.coords t) G = ((cfg4.win 2).blk t).view.read (Elt Ideal) G := by
  obtain ⟨e0, e1⟩ := pool_out_idx t
  funext j
  show G ((cfg4.win 2).xinj (grid4.coords t) j) = G (((cfg4.win 2).blk t).view.emb j)
  refine congrArg G (funext fun a => Fin.ext ?_)
  match a with
  | ⟨0, _⟩ => show (j 0).val = win4_2.index t (0 : Fin 2) * 512 + 1 * (j 0).val; omega
  | ⟨1, _⟩ => show (j 1).val = win4_2.index t (1 : Fin 2) * 64 + 1 * (j 1).val; omega

/-- The only point that writes back is the last; what it writes is the per-graph sums, read through its block. -/
theorem pool_flushed (c : Dev nD) (t : Fin cfg4.N) (hf : (cfg4.win 2).flush t = true) :
    (dat4 V c).flushed 2 t = ((cfg4.win 2).blk t).view.read (Elt Ideal)
      (Cert.Gcn.poolSum (V c main_v65) (fun j => V c main_v66 (ix2 (j 0) 0))) := by
  have hN : cfg4.N = 25 := N_4
  have h24 : t.val = 24 := by have := (flush4_2 t).mp hf; have := t.isLt; omega
  obtain ⟨n, hn⟩ := t
  dsimp only at h24
  subst h24
  show (cfg4.win 2).cut (grid4.coords ⟨24, hn⟩) ((dat4 V c).after 2 ⟨24, hn⟩) = _
  rw [after4_2]
  show (cfg4.win 2).cut (grid4.coords ⟨24, hn⟩) (outsAt4 V c 24 hn) = _
  rw [pool_last V c hn]
  exact pool_cut_eq_read ⟨24, hn⟩ _

/-- An entry is in a point's output block iff each coordinate is in the block's range on its axis. -/
theorem pool_mem_blk (t : Fin cfg4.N) (i : S512x64.Idx) :
    i ∈ ((cfg4.win 2).blk t).view.set ↔ ∀ a : Fin 2, win4_2.index t a * S512x64.size a ≤ (i a).val
      ∧ (i a).val < win4_2.index t a * S512x64.size a + S512x64.size a := by
  show i ∈ ((View.whole main_v67).slice (win4_2.rect t)).set ↔ _
  rw [View.set_slice_whole, Rect.mem_set_unit]
  exact Iff.rfl

/-- The array of per-graph sums after the region: the last point's block covers it all. -/
theorem final4 (c : Dev nD) : (dat4 (F := Ideal) V c).arrAt 2 cfg4.N
    = Cert.Gcn.poolSum (V c main_v65) (fun j => V c main_v66 (ix2 (j 0) 0)) :=
  (dat4 V c).arrAt_eq_of_cover 2 _ (pool_flushed V c) fun i => by
    have hN : cfg4.N = 25 := N_4
    obtain ⟨e0, e1⟩ := pool_out_idx ⟨24, by rw [hN]; decide⟩
    refine ⟨⟨24, by rw [hN]; decide⟩, (flush4_2 _).mpr rfl, ?_⟩
    rw [pool_mem_blk]
    intro a
    match a with
    | ⟨0, _⟩ =>
      show win4_2.index ⟨24, _⟩ (0 : Fin 2) * 512 ≤ (i 0).val ∧ (i 0).val < win4_2.index ⟨24, _⟩ (0 : Fin 2) * 512 + 512
      have h0 : (i 0).val < 512 := (i 0).isLt
      omega
    | ⟨1, _⟩ =>
      show win4_2.index ⟨24, _⟩ (1 : Fin 2) * 64 ≤ (i 1).val ∧ (i 1).val < win4_2.index ⟨24, _⟩ (1 : Fin 2) * 64 + 64
      have h1 : (i 1).val < 64 := (i 1).isLt
      omega

end Result

end Cert.KernelIdeal.RegionValue

end
-- ==== Proof.Reg5.lean ====
/-
  The classifier region read as a whole-array function.

  The region's grid is a single point whose windows are the whole arrays: the pooled features P (512 × 64),
  the weights W (64 × 3), the bias b (3), and the output (512 × 3). The body leaves in the output the value
  entry (g, c) = Σ_k P[g,k] · W[k,c] + b[c]: the product into a zero accumulator is the bare sum over the 64
  hidden features (narrowing the operands changes nothing over the extended reals), and the bias is one row
  [3] → [1,3] repeated over the 512 rows. The single block is the whole output array, so the array after the
  region is exactly that function of the three arrays the region found.
-/
import proofs.«409920_j60619168416467_1_alg».proof.Proof.Gen.KernelIdeal.Frame
import proofs.«409920_j60619168416467_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The product's operand indices, axis by axis -/

/-- The left operand's row is the output's row. -/
theorem classifier_lhs_0 (i : S512x3.Idx) (q : dot_S512x64_S64x3_S512x3_1_0_0_1_n_n.contr.Idx) :
    (dot_S512x64_S64x3_S512x3_1_0_0_1_n_n.lhsIdx i q 0).val = (i 0).val := by
  unfold DotDims.lhsIdx
  rw [dif_neg (show ¬(0 : Fin S512x64.rank) ∈ dot_S512x64_S64x3_S512x3_1_0_0_1_n_n.lhsBatch by decide), dif_pos (show (0 : Fin S512x64.rank) ∈ dot_S512x64_S64x3_S512x3_1_0_0_1_n_n.lhsNonContracting by decide)]
  rfl
/-- The left operand's column is the summation index. -/
theorem classifier_lhs_1 (i : S512x3.Idx) (q : dot_S512x64_S64x3_S512x3_1_0_0_1_n_n.contr.Idx) :
    (dot_S512x64_S64x3_S512x3_1_0_0_1_n_n.lhsIdx i q 1).val = (q ⟨0, by decide⟩).val :=
  dot_S512x64_S64x3_S512x3_1_0_0_1_n_n.lhsIdx_val_of_single rfl i q
/-- The right operand's row is the summation index. -/
theorem classifier_rhs_0 (i : S512x3.Idx) (q : dot_S512x64_S64x3_S512x3_1_0_0_1_n_n.contr.Idx) :
    (dot_S512x64_S64x3_S512x3_1_0_0_1_n_n.rhsIdx i q 0).val = (q ⟨0, by decide⟩).val :=
  dot_S512x64_S64x3_S512x3_1_0_0_1_n_n.rhsIdx_val_of_single rfl i q
/-- The right operand's column is the output's column. -/
theorem classifier_rhs_1 (i : S512x3.Idx) (q : dot_S512x64_S64x3_S512x3_1_0_0_1_n_n.contr.Idx) :
    (dot_S512x64_S64x3_S512x3_1_0_0_1_n_n.rhsIdx i q 1).val = (i 1).val := by
  unfold DotDims.rhsIdx
  rw [dif_neg (show ¬(1 : Fin S64x3.rank) ∈ dot_S512x64_S64x3_S512x3_1_0_0_1_n_n.rhsBatch by decide), dif_pos (show (1 : Fin S64x3.rank) ∈ dot_S512x64_S64x3_S512x3_1_0_0_1_n_n.rhsNonContracting by decide)]
  rfl

/-! ## The body's value at an entry -/

/-- The product into the zero accumulator, at entry (p, q): Σ_k A[p,k] · B[k,q] over the 64 hidden features. -/
theorem classifier_matmul_apply (y0 : FVec Ideal S512x64 .bf16) (y1 : FVec Ideal S64x3 .bf16) (p : Fin 512) (q : Fin 3) :
    FloatOps.matmul dot_S512x64_S64x3_S512x3_1_0_0_1_n_n none y0 y1 (constant (F := Ideal) S512x3 .f32 0x00000000#32) (ix2 p q)
      = ∑ k : Fin 64, y0 (ix2 p k) * y1 (ix2 k q) := by
  rw [Ideal.matmul_constant_zero_apply, ← Equiv.sum_comp (contrEquiv1 dot_S512x64_S64x3_S512x3_1_0_0_1_n_n 64 rfl rfl).symm]
  refine Finset.sum_congr rfl fun k _ => ?_
  have hk := contrEquiv1_symm_val dot_S512x64_S64x3_S512x3_1_0_0_1_n_n 64 rfl rfl k
  have el : dot_S512x64_S64x3_S512x3_1_0_0_1_n_n.lhsIdx (ix2 p q) ((contrEquiv1 dot_S512x64_S64x3_S512x3_1_0_0_1_n_n 64 rfl rfl).symm k) = ix2 p k := funext fun a => Fin.ext (by
    match a with
    | ⟨0, _⟩ => exact classifier_lhs_0 _ _
    | ⟨1, _⟩ => exact (classifier_lhs_1 _ _).trans hk)
  have er : dot_S512x64_S64x3_S512x3_1_0_0_1_n_n.rhsIdx (ix2 p q) ((contrEquiv1 dot_S512x64_S64x3_S512x3_1_0_0_1_n_n 64 rfl rfl).symm k) = ix2 k q := funext fun a => Fin.ext (by
    match a with
    | ⟨0, _⟩ => exact (classifier_rhs_0 _ _).trans hk
    | ⟨1, _⟩ => exact classifier_rhs_1 _ _)
  rw [el, er]

/-- What the body stores, at entry (p, q): the sum over the hidden features plus the bias of column q. -/
theorem classifier_pay_apply (x0 : Vec Ideal S512x64 .f32) (x1 : Vec Ideal S64x3 .f32) (x2 : Vec Ideal S3 .f32)
    (p : Fin 512) (q : Fin 3) :
    k5_pay1 (F := Ideal) x0 x1 x2 (ix2 p q) = (∑ k : Fin 64, x0 (ix2 p k) * x1 (ix2 k q)) + x2 (ix1 q) := by
  unfold k5_pay1
  rw [addf_apply, broadcastTo_1b_ab_apply, shapeCast_a_1a_apply, shapeCast_self]
  exact congrArg (· + x2 (ix1 q)) (classifier_matmul_apply _ _ p q)

/-- So the body's stored value is the classifier's function of its three loaded blocks. -/
theorem classifier_pay_eq (x0 : Vec Ideal S512x64 .f32) (x1 : Vec Ideal S64x3 .f32) (x2 : Vec Ideal S3 .f32) :
    k5_pay1 (F := Ideal) x0 x1 x2 = Cert.Gcn.classify x0 x1 x2 := by
  funext j
  obtain ⟨p, q, rfl⟩ : ∃ (p : Fin 512) (q : Fin 3), j = ix2 p q := ⟨j 0, j 1, eq_ix2 j⟩
  rw [classifier_pay_apply]
  rfl

/-! ## The one block is the whole array -/

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the one-point grid: every window's block index is zero on every axis. -/
theorem block_index_zero : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = 0 ∧ win5_3.index t (1 : Fin 2) = 0 :=
  (by decide +kernel : ∀ t : Fin grid5.N, _)

variable (V : (c : Dev nD) → (b : Ref sig .tc) → Buf (Elt Ideal) ((c : Thread nD τ).loc b))

/-- The pooled features' block is the whole array. -/
theorem pooled_block (c : Dev nD) (t : Fin cfg5.N) (y : S512x64.Idx) :
    iblk5 (F := Ideal) V c 0 t y = V c main_v76 y := by
  obtain ⟨e0, e1, -⟩ := block_index_zero t
  show V c main_v76 (((cfg5.win 0).blk t).view.emb y) = V c main_v76 y
  refine congrArg (V c main_v76) (funext fun a => Fin.ext ?_)
  match a with
  | ⟨0, _⟩ => show win5_0.index t (0 : Fin 2) * 512 + 1 * (y 0).val = (y 0).val; omega
  | ⟨1, _⟩ => show win5_0.index t (1 : Fin 2) * 64 + 1 * (y 1).val = (y 1).val; omega

/-- The weights' block is the whole array. -/
theorem weight_block (c : Dev nD) (t : Fin cfg5.N) (y : S64x3.Idx) :
    iblk5 (F := Ideal) V c 1 t y = V c main_arg13 y := by
  obtain ⟨-, -, e0, e1, -⟩ := block_index_zero t
  show V c main_arg13 (((cfg5.win 1).blk t).view.emb y) = V c main_arg13 y
  refine congrArg (V c main_arg13) (funext fun a => Fin.ext ?_)
  match a with
  | ⟨0, _⟩ => show win5_1.index t (0 : Fin 2) * 64 + 1 * (y 0).val = (y 0).val; omega
  | ⟨1, _⟩ => show win5_1.index t (1 : Fin 2) * 3 + 1 * (y 1).val = (y 1).val; omega

/-- The bias' block is the whole array. -/
theorem bias_block (c : Dev nD) (t : Fin cfg5.N) (y : S3.Idx) :
    iblk5 (F := Ideal) V c 2 t y = V c main_arg14 y := by
  obtain ⟨-, -, -, -, e0, -⟩ := block_index_zero t
  show V c main_arg14 (((cfg5.win 2).blk t).view.emb y) = V c main_arg14 y
  refine congrArg (V c main_arg14) (funext fun a => Fin.ext ?_)
  match a with
  | ⟨0, _⟩ => show win5_2.index t (0 : Fin 1) * 3 + 1 * (y 0).val = (y 0).val; omega

/-- What the one point writes back is the block of the classifier's value of the three arrays the region found. -/
theorem flushed5_eq (c : Dev nD) (t : Fin cfg5.N) :
    (dat5 (F := Ideal) V c).flushed 3 t = ((cfg5.win 3).blk t).view.read (Elt Ideal)
      (Cert.Gcn.classify (V c main_v76) (V c main_arg13) (V c main_arg14)) := by
  show (cfg5.win 3).cut (grid5.coords t) ((dat5 V c).after 3 t) = _
  rw [after5_3]
  unfold out5_3
  rw [View.canon_unit_zero zeros2]
  simp only [View.ld_unit_zero (S := S512x64) zeros2, View.ld_unit_zero (S := S64x3) zeros2, View.ld_unit_zero (S := S3) zeros1]
  rw [show iblk5 (F := Ideal) V c 0 t = V c main_v76 from funext (pooled_block V c t),
    show iblk5 (F := Ideal) V c 1 t = V c main_arg13 from funext (weight_block V c t),
    show iblk5 (F := Ideal) V c 2 t = V c main_arg14 from funext (bias_block V c t),
    classifier_pay_eq]
  obtain ⟨-, -, -, -, -, e0, e1⟩ := block_index_zero t
  funext j
  show Cert.Gcn.classify (V c main_v76) (V c main_arg13) (V c main_arg14) j
    = Cert.Gcn.classify (V c main_v76) (V c main_arg13) (V c main_arg14) (((cfg5.win 3).blk t).view.emb j)
  refine congrArg (Cert.Gcn.classify (V c main_v76) (V c main_arg13) (V c main_arg14)) (funext fun a => Fin.ext ?_)
  match a with
  | ⟨0, _⟩ => show (j 0).val = win5_3.index t (0 : Fin 2) * 512 + 1 * (j 0).val; omega
  | ⟨1, _⟩ => show (j 1).val = win5_3.index t (1 : Fin 2) * 3 + 1 * (j 1).val; omega

theorem final5 (c : Dev nD) : (dat5 (F := Ideal) V c).arrAt 3 cfg5.N
    = Cert.Gcn.classify (V c main_v76) (V c main_arg13) (V c main_arg14) :=
  (dat5 (F := Ideal) V c).arrAt_eq_of_cover 3 (Cert.Gcn.classify (V c main_v76) (V c main_arg13) (V c main_arg14))
    (fun t _ => flushed5_eq V c t) fun i =>
    ⟨t5_0, flush5_3 t5_0, by
      obtain ⟨-, -, -, -, -, e0, e1⟩ := block_index_zero t5_0
      show i ∈ ((View.whole main_v77).slice (win5_3.rect t5_0)).set
      rw [View.set_slice_whole, Rect.mem_set_unit]
      intro a
      have h0 : (i 0 : Nat) < 512 := (i 0).isLt
      have h1 : (i 1 : Nat) < 3 := (i 1).isLt
      match a with
      | ⟨0, _⟩ => show win5_3.index t5_0 (0 : Fin 2) * 512 ≤ (i 0 : Nat) ∧ (i 0 : Nat) < win5_3.index t5_0 (0 : Fin 2) * 512 + 512; omega
      | ⟨1, _⟩ => show win5_3.index t5_0 (1 : Fin 2) * 3 ≤ (i 1 : Nat) ∧ (i 1 : Nat) < win5_3.index t5_0 (1 : Fin 2) * 3 + 3; omega⟩

end Cert.KernelIdeal.RegionValue

end
-- ==== Proof.KStage3.lean ====
/-
  The last three stages of the kernel's run, each read as a whole-array function of the stage before.

  The per-graph sums: the pooling region leaves Σ_r [ids[r] = g] · H[r, j], H the second normalised layer; the ids
  reach it as a column [100000, 1], a cast of the launch vector that reads, at (r, 0), the vector at r.
  The means: twelve host operations divide the sums by the broadcast of max (Σ_r [ids[r] = g] · 1, 1), the
  reference's own term for the same step, literal for literal.
  The classifier: the last region leaves Σ_k P[g, k] · W[k, c] + b[c], P the means and W, b as launched; no host
  operation and no region writes an argument, so each is read back to its launch contents.
-/
import proofs.«409920_j60619168416467_1_alg».proof.Proof.Gen.KernelIdeal.Frame
import proofs.«409920_j60619168416467_1_alg».proof.Proof.Spec
import proofs.«409920_j60619168416467_1_alg».proof.Proof.Chains
import proofs.«409920_j60619168416467_1_alg».proof.Proof.Reg4
import proofs.«409920_j60619168416467_1_alg».proof.Proof.Reg5
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Stage

open Idealize.ShloMosaic Idealize.ShloMosaic.TcCoe Idealize.ShloMosaic.ValueIdx
open Idealize.SL.Sem
open Cert.KernelIdeal Cert.KernelIdeal.Gen

/-- A vector of length a cast to a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column cast of a vector, read back along its first coordinate, is the vector. -/
theorem column_read {α : Type} (x : (⟨1, ![100000]⟩ : Shape).Idx → α)
    (h : (⟨1, ![100000]⟩ : Shape).ShapeCasts ⟨2, ![100000, 1]⟩) :
    (fun j : (⟨1, ![100000]⟩ : Shape).Idx => shapeCast ⟨2, ![100000, 1]⟩ x h (ix2 (j 0) 0)) = x := by
  funext j
  obtain ⟨r, rfl⟩ : ∃ r : Fin 100000, j = ix1 r := ⟨j 0, eq_ix1 j⟩
  exact shapeCast_a_a1_apply x h r 0

/-- A buffer that no operation of a host stretch writes holds after the stretch what it held before. -/
local macro "unwritten" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt Ideal) ℓ) (ρ : Dev nD → PrngReg)

/-! ## The arguments read back to the launch -/

/-- The graph ids at the means' entry are the launch ids. -/
theorem ids_at11 (c : Dev nD) : W11 m ρ c (Proc.devRef .tc main_arg16) = m ((c : Thread nD τ).loc main_arg16) :=
  calc W11 m ρ c (Proc.devRef .tc main_arg16)
    _ = W12 m ρ c (Proc.devRef .tc main_arg16) := Eq.symm (by unwritten hostOps5)
    _ = W13 m ρ c (Proc.devRef .tc main_arg16) := (W13_of_ne m ρ c main_arg16 (by decide)).symm
    _ = m ((c : Thread nD τ).loc main_arg16) := W13_main_arg16 m ρ c

/-- The graph ids at the pooling's preparation are the launch ids. -/
theorem ids_at9 (c : Dev nD) : W9 m ρ c (Proc.devRef .tc main_arg16) = m ((c : Thread nD τ).loc main_arg16) :=
  calc W9 m ρ c (Proc.devRef .tc main_arg16)
    _ = W10 m ρ c (Proc.devRef .tc main_arg16) := Eq.symm (by unwritten hostOps4)
    _ = W11 m ρ c (Proc.devRef .tc main_arg16) := (W11_of_ne m ρ c main_arg16 (by decide)).symm
    _ = m ((c : Thread nD τ).loc main_arg16) := ids_at11 m ρ c

/-- The classifier's weights at its entry are the launch weights. -/
theorem weights_at12 (c : Dev nD) : W12 m ρ c (Proc.devRef .tc main_arg13) = m ((c : Thread nD τ).loc main_arg13) :=
  ((W13_arr m ρ c 1).trans (((dat5 (V12 m ρ) c).arrAt_in 1 rfl _).trans (A_eq5 (V12 m ρ) c 1))).symm.trans
    (W13_main_arg13 m ρ c)

/-- The classifier's bias at its entry is the launch bias. -/
theorem bias_at12 (c : Dev nD) : W12 m ρ c (Proc.devRef .tc main_arg14) = m ((c : Thread nD τ).loc main_arg14) :=
  ((W13_arr m ρ c 2).trans (((dat5 (V12 m ρ) c).arrAt_in 2 rfl _).trans (A_eq5 (V12 m ρ) c 2))).symm.trans
    (W13_main_arg14 m ρ c)

/-! ## The pooling's entry -/

/-- The one reshape before the pooling leaves the normalised layer alone. -/
theorem layer_at10 (c : Dev nD) : W10 m ρ c (Proc.devRef .tc main_v65) = W9 m ρ c (Proc.devRef .tc main_v65) := by
  unwritten hostOps4

/-- The pooling's id column is the cast of the graph ids. -/
theorem column_at10 (c : Dev nD) : (W10 m ρ c (Proc.devRef .tc main_v66) : S100000x1.Idx → BitVec 32)
    = shapeCast S100000x1 (W9 m ρ c (Proc.devRef .tc main_arg16)) shapeCasts_S100000_S100000x1 := by
  show StableHlo.after hostOps4 (W9 m ρ c) (Proc.devRef .tc main_v66) = _
  after_results
  rfl

/-- Region 4's result array is the per-graph sums of region 3's result under the graph ids. -/
theorem s6 (c : Dev nD) : (W11 m ρ c (Proc.devRef .tc main_v67)) = Cert.Gcn.poolSum (W9 m ρ c (Proc.devRef .tc main_v65)) (m ((c : Thread nD τ).loc main_arg16)) := by
  have e1 : V10 m ρ c main_v65 = W9 m ρ c (Proc.devRef .tc main_v65) := layer_at10 m ρ c
  have e2 : (fun j : Cert.Gcn.SN.Idx => V10 m ρ c main_v66 (ix2 (j 0) 0)) = m ((c : Thread nD τ).loc main_arg16) := by
    refine Eq.trans ?_ (ids_at9 m ρ c)
    refine Eq.trans ?_ (column_read (W9 m ρ c (Proc.devRef .tc main_arg16)) shapeCasts_S100000_S100000x1)
    funext j
    exact congrFun (column_at10 m ρ c) (ix2 (j 0) 0)
  refine ((W11_arr m ρ c 2).trans (Cert.KernelIdeal.RegionValue.final4 (V10 m ρ) c)).trans ?_
  rw [e1, e2]

/-- The host stretch after region 4 divides the sums by the floored graph sizes. -/
theorem s7 (c : Dev nD) : (W12 m ρ c (Proc.devRef .tc main_v76)) = Cert.ReferenceIdeal.Chain.meanDiv (F := Ideal) (W11 m ρ c (Proc.devRef .tc main_v67)) (m ((c : Thread nD τ).loc main_arg16)) := by
  rw [← ids_at11 m ρ c]
  show StableHlo.after hostOps5 (W11 m ρ c) (Proc.devRef .tc main_v76) = _
  after_results
  rfl

/-- Region 5's result array is the classifier of the means. -/
theorem s8 (c : Dev nD) : (W13 m ρ c (Proc.devRef .tc main_v77)) = Cert.Gcn.classify (W12 m ρ c (Proc.devRef .tc main_v76)) (m ((c : Thread nD τ).loc main_arg13)) (m ((c : Thread nD τ).loc main_arg14)) := by
  have e1 : V12 m ρ c main_arg13 = m ((c : Thread nD τ).loc main_arg13) := weights_at12 m ρ c
  have e2 : V12 m ρ c main_arg14 = m ((c : Thread nD τ).loc main_arg14) := bias_at12 m ρ c
  refine ((W13_arr m ρ c 3).trans (Cert.KernelIdeal.RegionValue.final5 (V12 m ρ) c)).trans ?_
  rw [e1, e2]

end Cert.KernelIdeal.Stage

end
-- ==== Proof.KResult.lean ====
/-
  The idealized kernel's result as one expression of its arguments.

  The run's last boundary assigns the result array the fold of @main; read stage by stage that fold is the
  classifier of the per-graph means of the second layer's output, each layer a dense product, a neighbourhood
  sum over the self-looped edge list, and a normalisation with a rectifier. The dense products, the
  normalisations, the per-graph sums and the classifier are the specification's functions; the neighbourhood
  sums and the division by the graph sizes are the host stretches both programs share.
-/
import proofs.«409920_j60619168416467_1_alg».proof.Proof.KStage1
import proofs.«409920_j60619168416467_1_alg».proof.Proof.KStage2
import proofs.«409920_j60619168416467_1_alg».proof.Proof.KStage3

noncomputable section

namespace Cert.KernelIdeal.Stage

open Idealize.ShloMosaic Idealize.ShloMosaic.TcCoe Idealize.SL.Sem
open Cert.KernelIdeal Cert.KernelIdeal.Gen Cert.ReferenceIdeal.Chain Cert.Gcn

variable (m : (ℓ : Loc nD τ sig) → Buf (Elt Ideal) ℓ) (ρ : Dev nD → PrngReg)

/-- The result array after the run, as the composition of the nine stages. -/
theorem result_eq (c : Dev nD) :
    W13 m ρ c (Proc.devRef .tc main_v77)
      = classify (meanDiv (F := Ideal) (poolSum
          (bnRelu (aggregate (F := Ideal) (m ((c : Thread nD τ).loc main_arg15))
            (dense2 (bnRelu (aggregate (F := Ideal) (m ((c : Thread nD τ).loc main_arg15)) (dense1 (m ((c : Thread nD τ).loc main_arg0)) (m ((c : Thread nD τ).loc main_arg1))) (m ((c : Thread nD τ).loc main_arg2)))
              (m ((c : Thread nD τ).loc main_arg3)) (m ((c : Thread nD τ).loc main_arg4)) (m ((c : Thread nD τ).loc main_arg5)) (m ((c : Thread nD τ).loc main_arg6))) (m ((c : Thread nD τ).loc main_arg7))) (m ((c : Thread nD τ).loc main_arg8)))
            (m ((c : Thread nD τ).loc main_arg9)) (m ((c : Thread nD τ).loc main_arg10)) (m ((c : Thread nD τ).loc main_arg11)) (m ((c : Thread nD τ).loc main_arg12)))
          (m ((c : Thread nD τ).loc main_arg16))) (m ((c : Thread nD τ).loc main_arg16))) (m ((c : Thread nD τ).loc main_arg13)) (m ((c : Thread nD τ).loc main_arg14)) := by
  rw [s8, s7, s6, s5, s4, s3, s2, s1, s0]

end Cert.KernelIdeal.Stage

end
-- ==== Proof.RefSide.lean ====
/-
  The reference's run, cut at the places where the kernel's program calls a device kernel.

  The generated run states the reference's result as one composed term of the arguments. That term is, node
  for node, the composition of the named stretches: the first dense product, the first neighbourhood sum, the
  normalisation with the rectifier, the second dense product, the second neighbourhood sum, the second
  normalisation, the per-graph sums, the division by the graph sizes, the classifier. Nothing is computed
  here: the two sides are the same tree of operations, the right one with names on its sub-trees.
-/
import proofs.«409920_j60619168416467_1_alg».proof.Defs
import proofs.«409920_j60619168416467_1_alg».proof.Proof.RefRun
import proofs.«409920_j60619168416467_1_alg».proof.Proof.Chains

set_option maxRecDepth 8192

noncomputable section

namespace Cert.ReferenceIdeal.RefValue

open Cert.ReferenceIdeal Cert.ReferenceIdeal.Gen Cert.ReferenceIdeal.RunV Cert.ReferenceIdeal.Chain
open Idealize.ShloMosaic Idealize.ShloMosaic.TcCoe Idealize.SL.Sem

variable {F : FTy → Type} [FloatOps F]

/-- The reference's composed result is the composition of its named stretches. -/
theorem res_eq (m : (ℓ : Loc nD τ sig) → Buf (Elt F) ℓ) (c : Dev nD) :
    res_main_v137 m c
      = logits (meanDiv (graphSum
          (normRelu (aggregate (m ((c.tc : Thread nD τ).loc main_arg15))
            (product2 (normRelu (aggregate (m ((c.tc : Thread nD τ).loc main_arg15)) (product1 (m ((c.tc : Thread nD τ).loc main_arg0)) (m ((c.tc : Thread nD τ).loc main_arg1))) (m ((c.tc : Thread nD τ).loc main_arg2)))
              (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) (m ((c.tc : Thread nD τ).loc main_arg8)))
            (m ((c.tc : Thread nD τ).loc main_arg9)) (m ((c.tc : Thread nD τ).loc main_arg10)) (m ((c.tc : Thread nD τ).loc main_arg11)) (m ((c.tc : Thread nD τ).loc main_arg12)))
          (m ((c.tc : Thread nD τ).loc main_arg16))) (m ((c.tc : Thread nD τ).loc main_arg16))) (m ((c.tc : Thread nD τ).loc main_arg13)) (m ((c.tc : Thread nD τ).loc main_arg14)) := by
  unfold res_main_v137 logits meanDiv graphSum normRelu aggregate product2 product1
  rfl

end Cert.ReferenceIdeal.RefValue

end
-- ==== Proof.RefOps.lean ====
/-
  The reference's four host computations against the specification, over the extended reals.

  A host contraction of an [R,K] matrix with a [K,C] matrix over the one shared axis reads, at entry (p, q), the sum
  over that axis of the operands' products: its operand indices at (p, q) and summation index k are (p, k) and (k, q),
  and the one-axis summation index is its coordinate. This gives the two dense products and, with the bias row
  broadcast along the rows, the classifier. The normalisation is entrywise: a length-64 row broadcast first to [1,64]
  and then along the rows reads, at (p, q), its q-th element, and subtraction, product, sum, inverse square root and
  maximum are the extended reals' own.
-/
import proofs.«409920_j60619168416467_1_alg».proof.Proof.Gen.ReferenceIdeal
import proofs.«409920_j60619168416467_1_alg».proof.Proof.Spec
import proofs.«409920_j60619168416467_1_alg».proof.Proof.Chains
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefOps

open Idealize.ShloMosaic Idealize.ShloMosaic.TcCoe Idealize.ShloMosaic.ValueIdx
open Cert.ReferenceIdeal Cert.ReferenceIdeal.Gen

/-- product1: the left operand's row coordinate is the output's row. -/
theorem lhs_product1_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
/-- product1: the left operand's column coordinate is the summation index. -/
theorem lhs_product1_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
/-- product1: the right operand's row coordinate is the summation index. -/
theorem rhs_product1_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
/-- product1: the right operand's column coordinate is the output's column. -/
theorem rhs_product1_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- product1: the host's contraction at entry (p, q) is Σ_k X[p,k] · W[k,q], the one contracted axis re-indexed by its
    coordinate. -/
theorem dot_product1_apply (x : FVec Ideal S100000x128 .f32) (w : FVec Ideal S128x64 .f32) (p : Fin 100000) (q : Fin 64) :
    Host.dotGeneral (F := Ideal) dot_S100000x128_S128x64_S100000x64_1_0_0_1_n_n none x w (ix2 p q) = ∑ k : Fin 128, x (ix2 p k) * w (ix2 k q) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 p q) ((contrEquiv1 dot_S100000x128_S128x64_S100000x64_1_0_0_1_n_n 128 rfl rfl).symm k) = ix2 p k := funext fun a => Fin.ext (by
    match a with
    | ⟨0, _⟩ => exact lhs_product1_0 _ _
    | ⟨1, _⟩ => exact (lhs_product1_1 _ _).trans hk)
  have er : dot_S100000x128_S128x64_S100000x64_1_0_0_1_n_n.rhsIdx (ix2 p q) ((contrEquiv1 dot_S100000x128_S128x64_S100000x64_1_0_0_1_n_n 128 rfl rfl).symm k) = ix2 k q := funext fun a => Fin.ext (by
    match a with
    | ⟨0, _⟩ => exact (rhs_product1_0 _ _).trans hk
    | ⟨1, _⟩ => exact rhs_product1_1 _ _)
  rw [el, er]

/-- product2: the left operand's row coordinate is the output's row. -/
theorem lhs_product2_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
/-- product2: the left operand's column coordinate is the summation index. -/
theorem lhs_product2_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
/-- product2: the right operand's row coordinate is the summation index. -/
theorem rhs_product2_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
/-- product2: the right operand's column coordinate is the output's column. -/
theorem rhs_product2_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- product2: the host's contraction at entry (p, q) is Σ_k X[p,k] · W[k,q], the one contracted axis re-indexed by its
    coordinate. -/
theorem dot_product2_apply (x : FVec Ideal S100000x64 .f32) (w : FVec Ideal S64x64 .f32) (p : Fin 100000) (q : Fin 64) :
    Host.dotGeneral (F := Ideal) dot_S100000x64_S64x64_S100000x64_1_0_0_1_n_n none x w (ix2 p q) = ∑ k : Fin 64, x (ix2 p k) * w (ix2 k q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 p q) ((contrEquiv1 dot_S100000x64_S64x64_S100000x64_1_0_0_1_n_n 64 rfl rfl).symm k) = ix2 p k := funext fun a => Fin.ext (by
    match a with
    | ⟨0, _⟩ => exact lhs_product2_0 _ _
    | ⟨1, _⟩ => exact (lhs_product2_1 _ _).trans hk)
  have er : dot_S100000x64_S64x64_S100000x64_1_0_0_1_n_n.rhsIdx (ix2 p q) ((contrEquiv1 dot_S100000x64_S64x64_S100000x64_1_0_0_1_n_n 64 rfl rfl).symm k) = ix2 k q := funext fun a => Fin.ext (by
    match a with
    | ⟨0, _⟩ => exact (rhs_product2_0 _ _).trans hk
    | ⟨1, _⟩ => exact rhs_product2_1 _ _)
  rw [el, er]

/-- classifier: the left operand's row coordinate is the output's row. -/
theorem lhs_classifier_0 (i : S512x3.Idx) (q : dot_S512x64_S64x3_S512x3_1_0_0_1_n_n.contr.Idx) :
    (dot_S512x64_S64x3_S512x3_1_0_0_1_n_n.lhsIdx i q 0).val = (i 0).val := by
  unfold DotDims.lhsIdx
  rw [dif_neg (show ¬(0 : Fin S512x64.rank) ∈ dot_S512x64_S64x3_S512x3_1_0_0_1_n_n.lhsBatch by decide), dif_pos (show (0 : Fin S512x64.rank) ∈ dot_S512x64_S64x3_S512x3_1_0_0_1_n_n.lhsNonContracting by decide)]
  rfl
/-- classifier: the left operand's column coordinate is the summation index. -/
theorem lhs_classifier_1 (i : S512x3.Idx) (q : dot_S512x64_S64x3_S512x3_1_0_0_1_n_n.contr.Idx) :
    (dot_S512x64_S64x3_S512x3_1_0_0_1_n_n.lhsIdx i q 1).val = (q ⟨0, by decide⟩).val :=
  dot_S512x64_S64x3_S512x3_1_0_0_1_n_n.lhsIdx_val_of_single rfl i q
/-- classifier: the right operand's row coordinate is the summation index. -/
theorem rhs_classifier_0 (i : S512x3.Idx) (q : dot_S512x64_S64x3_S512x3_1_0_0_1_n_n.contr.Idx) :
    (dot_S512x64_S64x3_S512x3_1_0_0_1_n_n.rhsIdx i q 0).val = (q ⟨0, by decide⟩).val :=
  dot_S512x64_S64x3_S512x3_1_0_0_1_n_n.rhsIdx_val_of_single rfl i q
/-- classifier: the right operand's column coordinate is the output's column. -/
theorem rhs_classifier_1 (i : S512x3.Idx) (q : dot_S512x64_S64x3_S512x3_1_0_0_1_n_n.contr.Idx) :
    (dot_S512x64_S64x3_S512x3_1_0_0_1_n_n.rhsIdx i q 1).val = (i 1).val := by
  unfold DotDims.rhsIdx
  rw [dif_neg (show ¬(1 : Fin S64x3.rank) ∈ dot_S512x64_S64x3_S512x3_1_0_0_1_n_n.rhsBatch by decide), dif_pos (show (1 : Fin S64x3.rank) ∈ dot_S512x64_S64x3_S512x3_1_0_0_1_n_n.rhsNonContracting by decide)]
  rfl

/-- classifier: the host's contraction at entry (p, q) is Σ_k X[p,k] · W[k,q], the one contracted axis re-indexed by its
    coordinate. -/
theorem dot_classifier_apply (x : FVec Ideal S512x64 .f32) (w : FVec Ideal S64x3 .f32) (p : Fin 512) (q : Fin 3) :
    Host.dotGeneral (F := Ideal) dot_S512x64_S64x3_S512x3_1_0_0_1_n_n none x w (ix2 p q) = ∑ k : Fin 64, x (ix2 p k) * w (ix2 k q) := by
  simp only [Host.dotGeneral]
  rw [Ideal.dotGeneral_apply, ← Equiv.sum_comp (contrEquiv1 dot_S512x64_S64x3_S512x3_1_0_0_1_n_n 64 rfl rfl).symm]
  refine Finset.sum_congr rfl fun k _ => ?_
  have hk := contrEquiv1_symm_val dot_S512x64_S64x3_S512x3_1_0_0_1_n_n 64 rfl rfl k
  have el : dot_S512x64_S64x3_S512x3_1_0_0_1_n_n.lhsIdx (ix2 p q) ((contrEquiv1 dot_S512x64_S64x3_S512x3_1_0_0_1_n_n 64 rfl rfl).symm k) = ix2 p k := funext fun a => Fin.ext (by
    match a with
    | ⟨0, _⟩ => exact lhs_classifier_0 _ _
    | ⟨1, _⟩ => exact (lhs_classifier_1 _ _).trans hk)
  have er : dot_S512x64_S64x3_S512x3_1_0_0_1_n_n.rhsIdx (ix2 p q) ((contrEquiv1 dot_S512x64_S64x3_S512x3_1_0_0_1_n_n 64 rfl rfl).symm k) = ix2 k q := funext fun a => Fin.ext (by
    match a with
    | ⟨0, _⟩ => exact (rhs_classifier_0 _ _).trans hk
    | ⟨1, _⟩ => exact rhs_classifier_1 _ _)
  rw [el, er]

/-- A length-64 row, broadcast to [1,64] and then along the 100000 rows, reads at (p, q) its q-th element. -/
theorem rowBroadcast64_apply (v : FVec Ideal S64 .f32) (p : Fin 100000) (q : Fin 64) :
    broadcastInDim S100000x64 ![0, 1] bcast_S1x64_S100000x64_0_1 (broadcastInDim S1x64 ![1] bcast_S64_S1x64_1 v) (ix2 p q)
      = v (ix1 q) := by
  rw [broadcastInDim_apply _ bcast_S1x64_S100000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])]
  exact broadcastInDim_apply _ bcast_S64_S1x64_1 v (ix2 (0 : Fin 1) q) (ix1 q) (fun a => match a with
    | ⟨0, _⟩ => by show q.val = if (64 : Nat) = 1 then 0 else q.val; rw [if_neg (by decide)])

/-- A length-3 row, broadcast to [1,3] and then along the 512 rows, reads at (p, q) its q-th element. -/
theorem rowBroadcast3_apply (v : FVec Ideal S3 .f32) (p : Fin 512) (q : Fin 3) :
    broadcastInDim S512x3 ![0, 1] bcast_S1x3_S512x3_0_1 (broadcastInDim S1x3 ![1] bcast_S3_S1x3_1 v) (ix2 p q)
      = v (ix1 q) := by
  rw [broadcastInDim_apply _ bcast_S1x3_S512x3_0_1 _ (ix2 p q) (ix2 (0 : Fin 1) q) (fun a => match a with
    | ⟨0, _⟩ => by show 0 = if (1 : Nat) = 1 then 0 else p.val; rw [if_pos rfl]
    | ⟨1, _⟩ => by show q.val = if (3 : Nat) = 1 then 0 else q.val; rw [if_neg (by decide)])]
  exact broadcastInDim_apply _ bcast_S3_S1x3_1 v (ix2 (0 : Fin 1) q) (ix1 q) (fun a => match a with
    | ⟨0, _⟩ => by show q.val = if (3 : Nat) = 1 then 0 else q.val; rw [if_neg (by decide)])

/-- A scalar broadcast to a length-64 row reads the scalar everywhere. -/
theorem scalarBroadcast64_apply (c : FVec Ideal S_ .f32) (q : Fin 64) :
    broadcastInDim S64 ![] bcast_S_S64 c (ix1 q) = c ix0 :=
  broadcastInDim_apply _ bcast_S_S64 c (ix1 q) ix0 (fun a => a.elim0)

/-- A scalar broadcast to a [100000,64] matrix reads the scalar everywhere. -/
theorem scalarBroadcastNxH_apply (c : FVec Ideal S_ .f32) (p : Fin 100000) (q : Fin 64) :
    broadcastInDim S100000x64 ![] bcast_S_S100000x64 c (ix2 p q) = c ix0 :=
  broadcastInDim_apply _ bcast_S_S100000x64 c (ix2 p q) ix0 (fun a => a.elim0)

/-- The host's dense product of the first layer is the sum over the 128 features. -/
theorem product1_eq (x : FVec Ideal S100000x128 .f32) (w : FVec Ideal S128x64 .f32) :
    Chain.product1 (F := Ideal) x w = Cert.Gcn.dense1 x w := by
  funext i
  obtain ⟨p, q, rfl⟩ : ∃ (p : Fin 100000) (q : Fin 64), i = ix2 p q := ⟨i 0, i 1, eq_ix2 i⟩
  exact dot_product1_apply x w p q

/-- The host's dense product of the second layer is the sum over the 64 hidden features. -/
theorem product2_eq (x : FVec Ideal S100000x64 .f32) (w : FVec Ideal S64x64 .f32) :
    Chain.product2 (F := Ideal) x w = Cert.Gcn.dense2 x w := by
  funext i
  obtain ⟨p, q, rfl⟩ : ∃ (p : Fin 100000) (q : Fin 64), i = ix2 p q := ⟨i 0, i 1, eq_ix2 i⟩
  exact dot_product2_apply x w p q

/-- The host's classifier is the sum over the 64 hidden features plus the bias. -/
theorem logits_eq (p : FVec Ideal S512x64 .f32) (w : FVec Ideal S64x3 .f32) (bc : FVec Ideal S3 .f32) :
    Chain.logits (F := Ideal) p w bc = Cert.Gcn.classify p w bc := by
  funext i
  obtain ⟨r, q, rfl⟩ : ∃ (r : Fin 512) (q : Fin 3), i = ix2 r q := ⟨i 0, i 1, eq_ix2 i⟩
  unfold Chain.logits
  rw [addf_apply, dot_classifier_apply, rowBroadcast3_apply]
  rfl

/-- The host's normalisation and rectifier, entry by entry. -/
theorem normRelu_eq (x : FVec Ideal S100000x64 .f32) (g bt rm rv : FVec Ideal S64 .f32) :
    Chain.normRelu (F := Ideal) x g bt rm rv = Cert.Gcn.bnRelu x g bt rm rv := by
  funext i
  obtain ⟨p, q, rfl⟩ : ∃ (p : Fin 100000) (q : Fin 64), i = ix2 p q := ⟨i 0, i 1, eq_ix2 i⟩
  unfold Chain.normRelu
  rw [maximumf_apply, addf_apply, mulf_apply, mulf_apply, subf_apply, scalarBroadcastNxH_apply, constant_apply,
    rowBroadcast64_apply, rowBroadcast64_apply, rowBroadcast64_apply, rowBroadcast64_apply]
  show max ((x (ix2 p q) - rm (ix1 q)) * FloatOps.hostUnary .rsqrt (addf rv (broadcastInDim S64 ![] bcast_S_S64 (constant (F := Ideal) S_ .f32 0x3727C5AC#32)) (ix1 q)) * g (ix1 q) + bt (ix1 q)) _ = _
  rw [Ideal.hostUnary_rsqrt_def, addf_apply, scalarBroadcast64_apply, constant_apply]
  rfl

end Cert.ReferenceIdeal.RefOps

end
-- ==== Proof.RefPool.lean ====
/-
  The reference's per-graph sums against the specification.

  The reference adds the node rows into a zero array of 512 × 64 entries: row r of the 100000 × 64 array lands at
  row t(r), the graph id of node r read as a SIGNED 32-bit integer, column kept, and is dropped when t(r) is
  outside [0, 512). So entry (g, j) of the result is 0 + Σ over the pairs (r, j') with t(r) = g and j' = j of X[r, j'].
  The sum over pairs is the double sum over r and j'; the inner sum keeps the single term j' = j; and for g < 512
  "t(r) = g" says exactly that the id of node r is the 32-bit word of g. What is left is Σ_r [ids[r] = g] · X[r, j],
  with 1 · x = x and 0 · x = 0 for every extended real x.
-/
import proofs.«409920_j60619168416467_1_alg».proof.Proof.Gen.ReferenceIdeal
import proofs.«409920_j60619168416467_1_alg».proof.Proof.Spec
import proofs.«409920_j60619168416467_1_alg».proof.Proof.Chains
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefOps

open Idealize.ShloMosaic Idealize.ShloMosaic.TcCoe Idealize.ShloMosaic.ValueIdx
open Cert.ReferenceIdeal Cert.ReferenceIdeal.Gen

local notation "poolDims" => scatter_S512x64_S100000x1_S100000x64_1_0_0_1

/-- The update (r, j) reads its one start component at position (r, 0) of the index operand. -/
theorem siIdx_eq (r : Fin 100000) (q : Fin 64) (c : Fin (poolDims).scatterDimsToOperandDims.length) :
    (poolDims).siIdx (ix2 r q) c = ix2 r 0 := by
  funext b
  match b with
  | ⟨0, _⟩ => rfl
  | ⟨1, _⟩ =>
    have hc : c.val < 1 := c.isLt
    exact Fin.ext (by show c.val = 0; omega)

/-- On the row axis the window of update (r, j) starts at the id of node r, read signed. -/
theorem start_zero (r : Fin 100000) (q : Fin 64) (idx : IVec S100000x1 32) :
    (poolDims).start (ix2 r q) idx 0 = (idx (ix2 r 0)).toInt := by
  unfold ScatterDims.start
  rw [dif_pos (by decide), siIdx_eq]

/-- On the column axis the window starts at 0. -/
theorem start_one (r : Fin 100000) (q : Fin 64) (idx : IVec S100000x1 32) :
    (poolDims).start (ix2 r q) idx 1 = 0 := by
  unfold ScatterDims.start
  rw [dif_neg (by decide)]

/-- The row axis is inserted: the window coordinate there is 0. -/
theorem window_zero (r : Fin 100000) (q : Fin 64) : (poolDims).window (ix2 r q) 0 = 0 := by
  unfold ScatterDims.window
  rw [dif_neg (by decide)]

/-- The column axis carries the update's own column j. -/
theorem window_one (r : Fin 100000) (q : Fin 64) : (poolDims).window (ix2 r q) 1 = q.val := by
  unfold ScatterDims.window
  rw [dif_pos (by decide)]
  rfl

/-- A 32-bit word read signed equals a small natural exactly when it is that natural's word. -/
theorem toInt_eq_iff (b : BitVec 32) (g : Nat) (hg : g < 512) : b.toInt = (g : Int) ↔ b = BitVec.ofNat 32 g := by
  have hs : (BitVec.ofNat 32 g).toInt = (g : Int) := by
    rw [BitVec.toInt_eq_toNat_cond, BitVec.toNat_ofNat]
    have : g % 2 ^ 32 = g := Nat.mod_eq_of_lt (by omega)
    rw [this, if_pos (by omega)]
  constructor
  · intro h
    exact BitVec.toInt_inj.mp (h.trans hs.symm)
  · intro h
    rw [h, hs]

/-- Update (r, j) lands at (g, j') exactly when the id of node r, read signed, is g and j = j'; an id outside
    [0, 512) lands nowhere. -/
theorem resultIdx_eq (r : Fin 100000) (q : Fin 64) (idx : IVec S100000x1 32) (g : Fin 512) (q' : Fin 64) :
    (poolDims).resultIdx? (ix2 r q) idx = some (ix2 g q') ↔ ((idx (ix2 r 0)).toInt = (g.val : Int) ∧ q = q') := by
  unfold ScatterDims.resultIdx?
  by_cases ht : 0 ≤ (idx (ix2 r 0)).toInt ∧ (idx (ix2 r 0)).toInt < 512
  · have h : ∀ a, 0 ≤ (poolDims).start (ix2 r q) idx a + (poolDims).window (ix2 r q) a ∧
        (poolDims).start (ix2 r q) idx a + (poolDims).window (ix2 r q) a < S512x64.size a := by
      intro a
      match a with
      | ⟨0, _⟩ =>
        show 0 ≤ (poolDims).start (ix2 r q) idx 0 + (poolDims).window (ix2 r q) 0 ∧
          (poolDims).start (ix2 r q) idx 0 + (poolDims).window (ix2 r q) 0 < ((512 : Nat) : Int)
        rw [start_zero, window_zero]; omega
      | ⟨1, _⟩ =>
        show 0 ≤ (poolDims).start (ix2 r q) idx 1 + (poolDims).window (ix2 r q) 1 ∧
          (poolDims).start (ix2 r q) idx 1 + (poolDims).window (ix2 r q) 1 < ((64 : Nat) : Int)
        rw [start_one, window_one]; omega
    rw [dif_pos h]
    constructor
    · intro he
      have he := Option.some.inj he
      have h0 : ((poolDims).start (ix2 r q) idx 0 + ((poolDims).window (ix2 r q) 0 : Nat)).toNat = g.val :=
        congrArg (fun f => (f 0).val) he
      have h1 : ((poolDims).start (ix2 r q) idx 1 + ((poolDims).window (ix2 r q) 1 : Nat)).toNat = q'.val :=
        congrArg (fun f => (f 1).val) he
      rw [start_zero, window_zero] at h0
      rw [start_one, window_one] at h1
      exact ⟨by omega, Fin.ext (by omega)⟩
    · rintro ⟨hg, rfl⟩
      refine congrArg some (funext fun a => ?_)
      match a with
      | ⟨0, _⟩ =>
        exact Fin.ext (by
          show ((poolDims).start (ix2 r q) idx 0 + ((poolDims).window (ix2 r q) 0 : Nat)).toNat = g.val
          rw [start_zero, window_zero]; omega)
      | ⟨1, _⟩ =>
        exact Fin.ext (by
          show ((poolDims).start (ix2 r q) idx 1 + ((poolDims).window (ix2 r q) 1 : Nat)).toNat = q.val
          rw [start_one, window_one]; omega)
  · have h : ¬ ∀ a, 0 ≤ (poolDims).start (ix2 r q) idx a + (poolDims).window (ix2 r q) a ∧
        (poolDims).start (ix2 r q) idx a + (poolDims).window (ix2 r q) a < S512x64.size a := by
      intro h
      have h0 : 0 ≤ (poolDims).start (ix2 r q) idx 0 + (poolDims).window (ix2 r q) 0 ∧
          (poolDims).start (ix2 r q) idx 0 + (poolDims).window (ix2 r q) 0 < ((512 : Nat) : Int) := h 0
      rw [start_zero, window_zero] at h0
      exact ht (by omega)
    rw [dif_neg h]
    constructor
    · intro he; cases he
    · rintro ⟨hg, _⟩
      have := g.isLt
      exact absurd (by omega) ht

/-- The index operand of the scatter is the graph-id vector with a unit axis appended. -/
theorem ids_read (batch : IVec S100000 32) (r : Fin 100000) :
    broadcastInDim S100000x1 ![0] bcast_S100000_S100000x1_0 batch (ix2 r 0) = batch (ix1 r) := by
  refine broadcastInDim_apply _ _ _ _ _ (fun a => ?_)
  match a with
  | ⟨0, _⟩ => rfl

/-- The operand of the scatter is the zero array. -/
theorem zero_read (i : S512x64.Idx) :
    broadcastInDim S512x64 ![] bcast_S_S512x64 (constant (F := Ideal) S_ .f32 0x00000000#32) i = 0 := by
  unfold broadcastInDim
  rw [constant_apply, Ideal.ofBits_zero_f32]

/-- The host's scatter of the node rows into their graphs, added, is the indicator-weighted sum over the nodes. -/
theorem graphSum_eq (h : FVec Ideal S100000x64 .f32) (batch : IVec S100000 32) :
    Chain.graphSum (F := Ideal) h batch = Cert.Gcn.poolSum h batch := by
  funext i
  obtain ⟨g, q, rfl⟩ : ∃ (g : Fin 512) (q : Fin 64), i = ix2 g q := ⟨i 0, i 1, eq_ix2 i⟩
  unfold Chain.graphSum Host.scatterAdd
  rw [Ideal.hostScatterAdd_def]
  unfold Ideal.hostScatterAdd
  rw [zero_read, zero_add, Finset.sum_filter, sum_idx2]
  show _ = ∑ r : Fin 100000, Cert.Gcn.hot (batch (ix1 r)) g.val * h (ix2 r q)
  refine Finset.sum_congr rfl (fun r _ => ?_)
  unfold Cert.Gcn.hot
  by_cases hb : batch (ix1 r) = BitVec.ofNat 32 g.val
  · rw [if_pos hb, one_mul]
    have hP : (broadcastInDim S100000x1 ![0] bcast_S100000_S100000x1_0 batch (ix2 r 0)).toInt = (g.val : Int) := by
      rw [ids_read]; exact (toInt_eq_iff _ _ g.isLt).2 hb
    rw [Finset.sum_eq_single q]
    · rw [if_pos ((resultIdx_eq r q _ g q).2 ⟨hP, rfl⟩)]
    · intro b _ hbq
      rw [if_neg]
      intro hc
      exact hbq ((resultIdx_eq r b _ g q).1 hc).2
    · intro hq; exact absurd (Finset.mem_univ q) hq
  · rw [if_neg hb, zero_mul]
    refine Finset.sum_eq_zero (fun b _ => ?_)
    rw [if_neg]
    intro hc
    have ht := ((resultIdx_eq r b _ g q).1 hc).1
    rw [ids_read] at ht
    exact hb ((toInt_eq_iff _ _ g.isLt).1 ht)

end Cert.ReferenceIdeal.RefOps

end
-- ==== Proof.lean ====
/-
  A two-layer graph convolution network with mean pooling and a linear classifier: the kernel's program
  against its reference, over the extended reals.

  Each layer is a dense product H·W, a neighbourhood sum over the edge list extended by self loops (row d
  collects the rows s of its edges (s, d), each weighted by the inverse root degrees of its two ends, plus a
  bias), and a normalisation by running statistics followed by a rectifier. Then the node rows are summed into
  their graphs, divided by the graph sizes (floored at one), and classified by a dense product plus a bias.

  The kernel's program runs the dense products, the normalisations, the per-graph sums (as a product with the
  0/1 membership matrix, accumulated over 25 blocks of 4000 nodes) and the classifier as device kernels and the
  neighbourhood sums and the division on the host; the reference runs everything on the host. Over the
  extended reals the two results are the same expression: a change of float format is the identity, a blocked
  matrix product is the full sum over the contracted axis (sums of extended reals commute and associate), and
  the membership-matrix product is the scatter-add, because 0 · x = 0 and 1 · x = x for every extended real x,
  an infinite one included — no finiteness of the inputs is used. A graph id outside 0..511 matches no row of
  the membership matrix and is dropped by the scatter alike. The neighbourhood sums and the division are the
  same host operations on both sides and are never opened.

  The three frames: the kernel's two are the generated frame certificates; the reference's is its generated run
  with the result dropped. The idealization rewrote nothing, so `preserves` is trivial.
-/
import proofs.«409920_j60619168416467_1_alg».proof.Defs
import proofs.«409920_j60619168416467_1_alg».proof.Proof.Gen.Kernel
import proofs.«409920_j60619168416467_1_alg».proof.Proof.Gen.Kernel.Skeleton
import proofs.«409920_j60619168416467_1_alg».proof.Proof.Gen.Kernel.Launch
import proofs.«409920_j60619168416467_1_alg».proof.Proof.Gen.Kernel.Points
import proofs.«409920_j60619168416467_1_alg».proof.Proof.Gen.Kernel.Frame
import proofs.«409920_j60619168416467_1_alg».proof.Proof.Gen.KernelIdeal
import proofs.«409920_j60619168416467_1_alg».proof.Proof.Gen.KernelIdeal.Skeleton
import proofs.«409920_j60619168416467_1_alg».proof.Proof.Gen.KernelIdeal.Launch
import proofs.«409920_j60619168416467_1_alg».proof.Proof.Gen.KernelIdeal.Points
import proofs.«409920_j60619168416467_1_alg».proof.Proof.Gen.KernelIdeal.Frame
import proofs.«409920_j60619168416467_1_alg».proof.Proof.Gen.ReferenceIdeal
import proofs.«409920_j60619168416467_1_alg».proof.Proof.RefRun
import proofs.«409920_j60619168416467_1_alg».proof.Proof.Gen.Pre_finite_inputs
import proofs.«409920_j60619168416467_1_alg».proof.Proof.KRun
import proofs.«409920_j60619168416467_1_alg».proof.Proof.KResult
import proofs.«409920_j60619168416467_1_alg».proof.Proof.RefSide
import proofs.«409920_j60619168416467_1_alg».proof.Proof.RefOps
import proofs.«409920_j60619168416467_1_alg».proof.Proof.RefPool
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RunV.run (F := Ideal) m ρ)

theorem preserves : Cert.preserves_Kernel_KernelIdeal := trivial

/-- Both runs end with the result array at one expression of the (agreeing) arguments: the kernel's by its
    nine stages, the reference's by its composed term cut at the same places, the cut pieces equal to the
    specification's functions one by one. -/
theorem algebraic : Cert.algebraic_KernelIdeal_ReferenceIdeal := by
  intro m ρ m' ρ' _ hagree
  refine ⟨fun c => Cert.KernelIdeal.Gen.W13 m ρ c (Proc.devRef .tc Cert.KernelIdeal.main_v77),
    Cert.KernelIdeal.RunV.run_result m ρ, ?_⟩
  refine (θ_run Cert.ReferenceIdeal.defs _ _).mono (fun _ h c => ⟨(h c).1.trans ?_, (h c).2⟩)
    (Cert.ReferenceIdeal.RunV.run (F := Ideal) m' ρ')
  beta_reduce
  obtain ⟨e0, e1, e2, e3, e4, e5, e6, e7, e8, e9, e10, e11, e12, e13, e14, e15, e16⟩ := hagree c
  rw [Cert.ReferenceIdeal.RefValue.res_eq, Cert.KernelIdeal.Stage.result_eq,
    e0, e1, e2, e3, e4, e5, e6, e7, e8, e9, e10, e11, e12, e13, e14, e15, e16,
    Cert.ReferenceIdeal.RefOps.product1_eq, Cert.ReferenceIdeal.RefOps.normRelu_eq,
    Cert.ReferenceIdeal.RefOps.product2_eq, Cert.ReferenceIdeal.RefOps.normRelu_eq,
    Cert.ReferenceIdeal.RefOps.graphSum_eq, Cert.ReferenceIdeal.RefOps.logits_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
